-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048x2048 : Shape := ⟨3, ![2, 2048, 2048]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg5 : FVec F S1024x1024 .f32) (main_arg6 : FVec F S1024x1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg8 main_v33

def fn {F : FTy → Type} [FloatOps F] (main_arg0 : FVec F S2x2048x1024 .f32) (main_arg1 : FVec F S2x2048x1024 .f32) (main_arg2 : FVec F S2x2048x1024 .f32) (main_arg3 : IVec S2x2048x2048 32) (main_arg4 : FVec F S1024x1024 .f32) (main_arg5 : FVec F S1024x1024 .f32) (main_arg6 : FVec F S1024x1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_v13 main_v16
-- ==== Kernel.lean ====
abbrev S2x2048x1024 : Shape := ⟨3, ![2, 2048, 1024]⟩
abbrev S2x2048x2048 : Shape := ⟨3, ![2, 2048, 2048]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩
abbrev S1x1024 : Shape := ⟨2, ![1, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x2048 : Shape := ⟨2, ![256, 2048]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩

abbrev nBuf : Space → Nat
  | .hbm => 28
  | .vmem => 34
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x2048, .i32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S4096x1024, .bf16⟩
  | .hbm, ⟨16, _⟩ => ⟨S2x2048x1024, .bf16⟩
  | .hbm, ⟨17, _⟩ => ⟨S1x1024, .f32⟩
  | .hbm, ⟨18, _⟩ => ⟨S4096x1024, .bf16⟩
  | .hbm, ⟨19, _⟩ => ⟨S2x2048x1024, .bf16⟩
  | .hbm, ⟨20, _⟩ => ⟨S1x1024, .f32⟩
  | .hbm, ⟨21, _⟩ => ⟨S4096x1024, .bf16⟩
  | .hbm, ⟨22, _⟩ => ⟨S2x2048x1024, .bf16⟩
  | .hbm, ⟨23, _⟩ => ⟨S2x2048x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S1x256x2048, .i32⟩
  | .local _ .vmem, ⟨25, _⟩ => ⟨S1x256x2048, .i32⟩
  | .local _ .vmem, ⟨26, _⟩ => ⟨S1x256x1024, .f32⟩
  | .local _ .vmem, ⟨27, _⟩ => ⟨S1x256x1024, .f32⟩
  | .local _ .vmem, ⟨28, _⟩ => ⟨S512x1024, .f32⟩
  | .local _ .vmem, ⟨29, _⟩ => ⟨S512x1024, .f32⟩
  | .local _ .vmem, ⟨30, _⟩ => ⟨S1024x1024, .f32⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 8], ![false, false]⟩

@[reducible] def k3_t1_loop : Scf.Loop 32 :=
  let c0_i32_2 : BitVec 32 := 0#32
  let c8_i32 : BitVec 32 := 8#32
  let v4 : BitVec 32 := Scalar.addi c0_i32_2 c8_i32
  let c1_i32 : BitVec 32 := 1#32
  ⟨c0_i32_2, v4, c1_i32⟩
def k3_mult1 (k3_t1 : Fin k3_t1_loop.trips) : BitVec 32 :=
  let c0_i32_2 : BitVec 32 := 0#32
  let c1_i32 : BitVec 32 := 1#32
  let arg7 : BitVec 32 := Scf.iv c0_i32_2 c1_i32 k3_t1
  let c128_i32 : BitVec 32 := 128#32
  let v5 : BitVec 32 := Scalar.muli arg7 c128_i32
  v5
def k3_off1 (k3_t1 : Fin k3_t1_loop.trips) : Fin 3 → Nat :=
  let c0_4 : Index := 0#32
  let c0_5 : Index := 0#32
  let c0_i32_2 : BitVec 32 := 0#32
  let c1_i32 : BitVec 32 := 1#32
  let arg7 : BitVec 32 := Scf.iv c0_i32_2 c1_i32 k3_t1
  let c128_i32 : BitVec 32 := 128#32
  let v5 : BitVec 32 := Scalar.muli arg7 c128_i32
  let v6 : BitVec 32 := v5
  let v7 : Index := Scalar.indexCast v6
  ![0, 0, v7.toNat]
def k3_off2 (k3_t1 : Fin k3_t1_loop.trips) : Fin 3 → Nat :=
  let c0_6 : Index := 0#32
  let c0_7 : Index := 0#32
  let c0_i32_2 : BitVec 32 := 0#32
  let c1_i32 : BitVec 32 := 1#32
  let arg7 : BitVec 32 := Scf.iv c0_i32_2 c1_i32 k3_t1
  let c128_i32 : BitVec 32 := 128#32
  let v5 : BitVec 32 := Scalar.muli arg7 c128_i32
  let v6 : BitVec 32 := v5
  let v10 : Index := Scalar.indexCast v6
  ![0, 0, v10.toNat]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x256x2048 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  bcast_S_S1024 : S_.BroadcastsInDim S1024 (![] : Fin 0 → Fin S1024.rank)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2x2048x1024 : S4096x1024.ShapeCasts S2x2048x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  h_S1x256x128 : 0 < S1x256x128.numel
  shapeCasts_S1x256x128_S256x128 : S1x256x128.ShapeCasts S256x128
  h_S1x2048x128 : 0 < S1x2048x128.numel
  shapeCasts_S1x2048x128_S2048x128 : S1x2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  shapeCasts_S256x128_S1x256x128 : S256x128.ShapeCasts S1x256x128
  dot_S512x1024_S1024x1024_S512x1024_1_1_0_0_n_n_wf : DotDims.WF S512x1024 S1024x1024 S512x1024 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .bf16 = 32 ∨ (Rect.block (s := S4096x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hrank3 : 0 < grid3.rank
  k3_t1_ok : k3_t1_loop.OK
  k3_mult1_dvd : ∀ k3_t1 : Fin k3_t1_loop.trips, 128 ∣ (k3_mult1 k3_t1).toNat
  k3_off1_inb : ∀ k3_t1 : Fin k3_t1_loop.trips, ∀ a, (k3_off1 k3_t1) a + S1x256x128.size a ≤ S1x256x1024.size a
  k3_off2_inb : ∀ k3_t1 : Fin k3_t1_loop.trips, ∀ a, (k3_off2 k3_t1) a + S1x2048x128.size a ≤ S1x2048x1024.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S2x2048x1024.size a
  hwx3_0 : ∀ i : grid3.Coords, EltTy.bits .bf16 = 32 ∨ (Rect.block (s := S2x2048x1024) S1x256x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S2x2048x1024.size a
  hwx3_1 : ∀ i : grid3.Coords, EltTy.bits .bf16 = 32 ∨ (Rect.block (s := S2x2048x1024) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S2x2048x1024.size a
  hwx3_2 : ∀ i : grid3.Coords, EltTy.bits .bf16 = 32 ∨ (Rect.block (s := S2x2048x1024) S1x2048x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256x2048.size a ≤ S2x2048x2048.size a
  hwx3_3 : ∀ i : grid3.Coords, EltTy.bits .i32 = 32 ∨ (Rect.block (s := S2x2048x2048) S1x256x2048.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x256x1024.size a ≤ S2x2048x1024.size a
  hwx3_4 : ∀ i : grid3.Coords, EltTy.bits .f32 = 32 ∨ (Rect.block (s := S2x2048x1024) S1x256x1024.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .f32 = 32 ∨ (Rect.block (s := S4096x1024) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v6) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1x2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x2048x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v13) S1x256x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v14) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S2x2048x2048 : Shape := ⟨3, ![2, 2048, 2048]⟩
abbrev S1024x1024 : Shape := ⟨2, ![1024, 1024]⟩
abbrev S1024 : Shape := ⟨1, ![1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x2048, .i32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S2x2048x16x64, .f32⟩
  | .hbm, ⟨17, _⟩ => ⟨S2x16x2048x64, .f32⟩
  | .hbm, ⟨18, _⟩ => ⟨S2x16x2048x2048, .f32⟩
  | .hbm, ⟨19, _⟩ => ⟨S_, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S2x1x2048x2048, .i32⟩
  | .hbm, ⟨24, _⟩ => ⟨S_, .i32⟩
  | .hbm, ⟨25, _⟩ => ⟨S2x1x2048x2048, .i32⟩
  | .hbm, ⟨26, _⟩ => ⟨S2x1x2048x2048, .i1⟩
  | .hbm, ⟨27, _⟩ => ⟨S_, .f32⟩
  | .hbm, ⟨28, _⟩ => ⟨S_, .f32⟩
  | .hbm, ⟨29, _⟩ => ⟨S2x16x2048x2048, .i1⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S_, .f32⟩
  | .hbm, ⟨35, _⟩ => ⟨S2x16x2048, .f32⟩
  | .hbm, ⟨36, _⟩ => ⟨S2x16x2048, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x64, .f32⟩
  | .hbm, ⟨47, _⟩ => ⟨S2x2048x16x64, .f32⟩
  | .hbm, ⟨48, _⟩ => ⟨S2x2048x1024, .f32⟩
  | .hbm, ⟨49, _⟩ => ⟨S2x2048x1024, .f32⟩
  | .hbm, ⟨50, _⟩ => ⟨S1x1x1024, .f32⟩
  | .hbm, ⟨51, _⟩ => ⟨S2x2048x1024, .f32⟩
  | .hbm, ⟨52, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  The mathematics of the certificate, with no program in sight: multi-head attention over
  a batch of 2 sequences of 2048 positions and a model width of 1024 = 16 heads × 64, as
  functions on the extended reals, index by index.

  * `proj x w`        : the projection `x · wᵀ`, entry (b, s, e) = ∑_d x[b,s,d] · w[e,d].
  * `scoreL`          : one masked, scaled logit: where the mask word is 0 the stand-in constant,
                         elsewhere (q · k) · (1/8) over the 64 coordinates of a head.
  * `rowMax`          : a row's maximum over the 2048 keys (the fold of `max` from -∞).
  * `wgtL`            : the unnormalised softmax weight e^{logit − rowMax}.
  * `attnKL`          : the kernel's arrangement (normalise AFTER the weighted sum of values);
    `attnRL`          : the reference's arrangement (normalise each weight, THEN sum).
  The two arrangements agree when every quantity is a real number (`Bridge`).
-/
import Idealize.ShloMosaic.PureOps.Ideal
import Idealize.ShloMosaic.Lib.ValueIdx

noncomputable section

open scoped BigOperators

namespace Cert.Attn

open Idealize.ShloMosaic Idealize.ShloMosaic.ValueIdx

/-- activations [batch, position, model] -/
abbrev Sx : Shape := ⟨3, ![2, 2048, 1024]⟩
/-- mask [batch, query, key] -/
abbrev Sm : Shape := ⟨3, ![2, 2048, 2048]⟩
/-- a weight matrix [out, in] -/
abbrev Sw : Shape := ⟨2, ![1024, 1024]⟩
/-- the output bias [out] -/
abbrev Sb : Shape := ⟨1, ![1024]⟩
/-- activations with batch and position merged, [batch · position, model] -/
abbrev Sr : Shape := ⟨2, ![4096, 1024]⟩
/-- a bias as a one-row matrix -/
abbrev Sb2 : Shape := ⟨2, ![1, 1024]⟩

/-- The stand-in for -∞ both programs write where the mask word is zero (the f32 nearest -10⁹). -/
def negBig : EReal := Ideal.ofBits .f32 0xCE6E6B28#32

/-- 1/√64. -/
def eighth : EReal := ((1 / 8 : ℝ) : EReal)

/-- Column `64 h + j` of the model axis: coordinate `j` of head `h`. -/
def headCol (h : Fin 16) (j : Fin 64) : Fin 1024 := ⟨h.val * 64 + j.val, by omega⟩

/-- Row `2048 b + s` of the merged batch-position axis. -/
def rowOf (b : Fin 2) (s : Fin 2048) : Fin 4096 := ⟨b.val * 2048 + s.val, by omega⟩

/-- `x · wᵀ` at (b, s, e). -/
def proj (x : Sx.Idx → EReal) (w : Sw.Idx → EReal) (b : Fin 2) (s : Fin 2048) (e : Fin 1024) : EReal :=
  ∑ d : Fin 1024, x (ix3 b s d) * w (ix2 e d)

/-- The same projection as an array. -/
def projA (x : Sx.Idx → EReal) (w : Sw.Idx → EReal) : Sx.Idx → EReal :=
  fun i => proj x w (i 0) (i 1) (i 2)

/-- One linear layer on merged rows: `x · wᵀ + bias`, entry (r, e). -/
def linRows (x : Sr.Idx → EReal) (w : Sw.Idx → EReal) (bias : Sb2.Idx → EReal) : Sr.Idx → EReal :=
  fun i => (∑ d : Fin 1024, x (ix2 (i 0) d) * w (ix2 (i 1) d)) + bias (ix2 (0 : Fin 1) (i 1))

/-- One masked, scaled logit from a query row, the key rows and the mask row of one head:
    the stand-in where the mask word is 0, else (q · k) / 8. -/
def scoreL (qrow : Fin 64 → EReal) (krows : Fin 2048 → Fin 64 → EReal) (mrow : Fin 2048 → BitVec 32) (k : Fin 2048) : EReal :=
  if mrow k = 0#32 then negBig else (∑ j : Fin 64, qrow j * krows k j) * eighth

/-- A row's maximum: the fold of `max` from -∞ over the keys. -/
def rowMax (f : Fin 2048 → EReal) : EReal := (Finset.univ : Finset (Fin 2048)).fold max ⊥ f

/-- The unnormalised softmax weight of key `k` in a row of logits. -/
def wgtL (sc : Fin 2048 → EReal) (k : Fin 2048) : EReal := Ideal.exp (sc k - rowMax sc)

/-- The kernel's arrangement on one row: the weighted sum of a value column, divided by the
    sum of the weights afterwards. -/
def attnKL (sc : Fin 2048 → EReal) (vcol : Fin 2048 → EReal) : EReal :=
  Ideal.div (∑ k : Fin 2048, wgtL sc k * vcol k) (∑ k : Fin 2048, wgtL sc k)

/-- The reference's arrangement on one row: each weight normalised first, then the sum. -/
def attnRL (sc : Fin 2048 → EReal) (vcol : Fin 2048 → EReal) : EReal :=
  ∑ k : Fin 2048, Ideal.div (wgtL sc k) (∑ k' : Fin 2048, wgtL sc k') * vcol k

/-- The row of logits of batch `b`, head `h`, query `s`. -/
def scoreRow (Q K : Sx.Idx → EReal) (mask : Sm.Idx → BitVec 32) (b : Fin 2) (h : Fin 16) (s : Fin 2048) : Fin 2048 → EReal :=
  scoreL (fun j => Q (ix3 b s (headCol h j))) (fun k j => K (ix3 b k (headCol h j))) (fun k => mask (ix3 b s k))

/-- Attention at (b, s, head h, coordinate j), the kernel's arrangement … -/
def attnK (Q K V : Sx.Idx → EReal) (mask : Sm.Idx → BitVec 32) (b : Fin 2) (s : Fin 2048) (h : Fin 16) (j : Fin 64) : EReal :=
  attnKL (scoreRow Q K mask b h s) (fun k => V (ix3 b k (headCol h j)))

/-- … and the reference's. -/
def attnR (Q K V : Sx.Idx → EReal) (mask : Sm.Idx → BitVec 32) (b : Fin 2) (s : Fin 2048) (h : Fin 16) (j : Fin 64) : EReal :=
  attnRL (scoreRow Q K mask b h s) (fun k => V (ix3 b k (headCol h j)))

/-- Head and in-head coordinate of a model column. -/
def headOf (e : Fin 1024) : Fin 16 := ⟨e.val / 64, by omega⟩
def inHead (e : Fin 1024) : Fin 64 := ⟨e.val % 64, Nat.mod_lt _ (by norm_num)⟩

theorem headCol_headOf_inHead (e : Fin 1024) : headCol (headOf e) (inHead e) = e :=
  Fin.ext (by simp only [headCol, headOf, inHead]; omega)

/-- The attention output as an array [batch, position, model], in the kernel's arrangement … -/
def attnKA (Q K V : Sx.Idx → EReal) (mask : Sm.Idx → BitVec 32) : Sx.Idx → EReal :=
  fun i => attnK Q K V mask (i 0) (i 1) (headOf (i 2)) (inHead (i 2))

/-- … and in the reference's. -/
def attnRA (Q K V : Sx.Idx → EReal) (mask : Sm.Idx → BitVec 32) : Sx.Idx → EReal :=
  fun i => attnR Q K V mask (i 0) (i 1) (headOf (i 2)) (inHead (i 2))

/-- The output layer: `a · woᵀ + bo`. -/
def outA (a : Sx.Idx → EReal) (wo : Sw.Idx → EReal) (bo : Sb.Idx → EReal) : Sx.Idx → EReal :=
  fun i => proj a wo (i 0) (i 1) (i 2) + bo (ix1 (i 2))

/-- The whole layer in the kernel's arrangement. -/
def layerK (q k v : Sx.Idx → EReal) (mask : Sm.Idx → BitVec 32) (wq wk wv wo : Sw.Idx → EReal) (bo : Sb.Idx → EReal) :
    Sx.Idx → EReal :=
  outA (attnKA (projA q wq) (projA k wk) (projA v wv) mask) wo bo

/-- The whole layer in the reference's arrangement. -/
def layerR (q k v : Sx.Idx → EReal) (mask : Sm.Idx → BitVec 32) (wq wk wv wo : Sw.Idx → EReal) (bo : Sb.Idx → EReal) :
    Sx.Idx → EReal :=
  outA (attnRA (projA q wq) (projA k wk) (projA v wv) mask) wo bo

/-- An array of extended reals whose every entry is a real number. -/
def IsReal {ι : Type} (x : ι → EReal) : Prop := ∀ i, ∃ r : ℝ, x i = (r : EReal)

end Cert.Attn

end
-- ==== Proof.Bridge.lean ====
/-
  The two arrangements of softmax-attention agree on real data: with every logit and every
  value a real number, the weights e^{logit − max} are positive reals, their sum `l` is a
  positive real, and  (∑ₖ pₖ · vₖ) / l = ∑ₖ (pₖ / l) · vₖ  is distributivity in ℝ.
  On the extended reals the law needs this finiteness (a sum with +∞ and -∞ terms does not
  distribute), which is why the projections are first shown to be real.
-/
import proofs.«421860_j29489245454730_3_alg».proof.Proof.Spec
import Mathlib.Data.EReal.Basic
import Mathlib.Data.EReal.Operations
import Mathlib.Data.EReal.Inv
import Mathlib.Data.Finset.Fold
import Mathlib.Data.Finset.Insert
import Mathlib.Algebra.BigOperators.Group.Finset.Basic
import Mathlib.Algebra.BigOperators.Ring.Finset
import Mathlib.Algebra.Order.BigOperators.Group.Finset
import Mathlib.Analysis.Complex.Exponential

noncomputable section

open scoped BigOperators

namespace Cert.Attn

open Idealize.ShloMosaic Idealize.ShloMosaic.ValueIdx

/-- The coercion of reals into the extended reals commutes with finite sums. -/
theorem coe_finset_sum {ι : Type} (s : Finset ι) (f : ι → ℝ) :
    (∑ i ∈ s, ((f i : ℝ) : EReal)) = ((∑ i ∈ s, f i : ℝ) : EReal) := by
  induction s using Finset.cons_induction with
  | empty => simp
  | cons a s ha ih => rw [Finset.sum_cons, Finset.sum_cons, ih, EReal.coe_add]

/-- The fold of `max` from -∞ over a nonempty finite family of reals is a real. -/
theorem fold_max_real {ι : Type} {s : Finset ι} (hs : s.Nonempty) (r : ι → ℝ) :
    ∃ M : ℝ, s.fold max ⊥ (fun k => ((r k : ℝ) : EReal)) = (M : EReal) := by
  induction hs using Finset.Nonempty.cons_induction with
  | singleton a => exact ⟨r a, by rw [Finset.fold_singleton]; exact max_bot_right _⟩
  | cons a s ha hs ih =>
    obtain ⟨M, hM⟩ := ih
    refine ⟨max (r a) M, ?_⟩
    rw [Finset.fold_cons, hM]
    exact (EReal.coe_strictMono.monotone.map_max).symm

/-- The stand-in constant is a real number. -/
theorem negBig_real : ∃ r : ℝ, negBig = (r : EReal) := by
  refine ⟨-1000000000, ?_⟩
  simp [negBig, Ideal.ofBits, Ideal.ieee, -EReal.coe_mul]; norm_num

/-- A projection of real data by a real matrix is real. -/
theorem isReal_projA {x : Sx.Idx → EReal} {w : Sw.Idx → EReal} (hx : IsReal x) (hw : IsReal w) : IsReal (projA x w) := by
  choose xr hxr using hx
  choose wr hwr using hw
  intro i
  refine ⟨∑ d : Fin 1024, xr (ix3 (i 0) (i 1) d) * wr (ix2 (i 2) d), ?_⟩
  simp only [projA, proj, hxr, hwr, ← EReal.coe_mul, coe_finset_sum]

/-- One row: real logits and a real value column give the same number in both arrangements. -/
theorem attnKL_eq_attnRL (sc vcol : Fin 2048 → EReal) (hs : IsReal sc) (hv : IsReal vcol) :
    attnKL sc vcol = attnRL sc vcol := by
  choose s hs' using hs
  choose v hv' using hv
  obtain rfl : sc = fun k => ((s k : ℝ) : EReal) := funext hs'
  obtain rfl : vcol = fun k => ((v k : ℝ) : EReal) := funext hv'
  obtain ⟨M, hM⟩ : ∃ M : ℝ, rowMax (fun k => ((s k : ℝ) : EReal)) = (M : EReal) :=
    fold_max_real Finset.univ_nonempty s
  have hw : ∀ k, wgtL (fun k => ((s k : ℝ) : EReal)) k = ((Real.exp (s k - M) : ℝ) : EReal) := by
    intro k
    simp only [wgtL, hM]
    rw [← EReal.coe_sub, Ideal.exp_coe]
  have hl : (∑ k : Fin 2048, Real.exp (s k - M)) ≠ 0 :=
    (Finset.sum_pos (fun k _ => Real.exp_pos _) Finset.univ_nonempty).ne'
  unfold attnKL attnRL
  simp only [hw, coe_finset_sum, Ideal.div_coe hl, ← EReal.coe_mul]
  rw [EReal.coe_eq_coe_iff, Finset.sum_mul]
  refine Finset.sum_congr rfl (fun k _ => ?_)
  ring

/-- A row of logits from real queries and keys is real. -/
theorem isReal_scoreRow {Q K : Sx.Idx → EReal} (mask : Sm.Idx → BitVec 32) (hQ : IsReal Q) (hK : IsReal K)
    (b : Fin 2) (h : Fin 16) (s : Fin 2048) : IsReal (scoreRow Q K mask b h s) := by
  choose qr hqr using hQ
  choose kr hkr using hK
  obtain ⟨nb, hnb⟩ := negBig_real
  intro k
  unfold scoreRow scoreL
  split_ifs
  · exact ⟨nb, hnb⟩
  · refine ⟨(∑ j : Fin 64, qr (ix3 b s (headCol h j)) * kr (ix3 b k (headCol h j))) * (1 / 8), ?_⟩
    simp only [hqr, hkr, eighth, ← EReal.coe_mul, coe_finset_sum]

/-- The attention arrays agree on real projections. -/
theorem attnKA_eq_attnRA {Q K V : Sx.Idx → EReal} (mask : Sm.Idx → BitVec 32) (hQ : IsReal Q) (hK : IsReal K) (hV : IsReal V) :
    attnKA Q K V mask = attnRA Q K V mask := by
  funext i
  unfold attnKA attnRA attnK attnR
  exact attnKL_eq_attnRL _ _ (isReal_scoreRow mask hQ hK _ _ _) (fun k => hV _)

/-- The whole layer: the kernel's arrangement is the reference's on real inputs. -/
theorem layerK_eq_layerR (q k v : Sx.Idx → EReal) (mask : Sm.Idx → BitVec 32) (wq wk wv wo : Sw.Idx → EReal) (bo : Sb.Idx → EReal)
    (hq : IsReal q) (hk : IsReal k) (hv : IsReal v) (hwq : IsReal wq) (hwk : IsReal wk) (hwv : IsReal wv) :
    layerK q k v mask wq wk wv wo bo = layerR q k v mask wq wk wv wo bo := by
  unfold layerK layerR
  rw [attnKA_eq_attnRA mask (isReal_projA hq hwq) (isReal_projA hk hwk) (isReal_projA hv hwv)]

end Cert.Attn

end
-- ==== Proof.Finite.lean ====
/-
  From the precondition to real numbers: `finite_inputs` says |x| < +∞ for every entry of
  every float input, conjoined over the arrays; an extended real with |x| < +∞ is a real.
-/
import proofs.«421860_j29489245454730_3_alg».proof.Pre_finite_inputs
import proofs.«421860_j29489245454730_3_alg».proof.Proof.Gen.Pre_finite_inputs
import proofs.«421860_j29489245454730_3_alg».proof.Proof.Spec
import Idealize.ShloMosaic.Lib.ReduceAll
import Idealize.ShloMosaic.Lib.IdealHost

noncomputable section

namespace Cert.Attn

open Idealize.ShloMosaic Idealize.ShloMosaic.ValueIdx

/-- The pattern 0x7F800000 denotes +∞. -/
private theorem ofBits_inf : Ideal.ofBits .f32 0x7F800000#32 = (⊤ : EReal) := by
  simp [Ideal.ofBits, Ideal.ieee]

/-- An extended real whose absolute value max x (−x) lies strictly below +∞ is a real number:
    of the three kinds of extended real, −∞ and +∞ both have absolute value +∞. -/
private theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One conjunct of the precondition, at any shape: if the conjunction over all entries of
    "|a i| < +∞" is true, every entry of `a` is a real number. -/
private theorem isReal_of_all {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (a : FVec Ideal S .f32)
    (h : Host.reduce IntOp.andi
          (cmpf .olt (Host.absf a)
            (broadcastInDim S ![] hb (constant (F := Ideal) Cert.Pre_finite_inputs.S_ .f32 0x7F800000#32)))
          (constantI Cert.Pre_finite_inputs.S_ 1 1#1) hr hu ix0 = 1#1) : IsReal a := by
  intro i
  -- the rank-0 result shape has exactly one index
  haveI : Subsingleton Cert.Pre_finite_inputs.S_.Idx := ⟨fun a b => funext fun d => d.elim0⟩
  have e := Host.reduce_andi_all _ _ hr hu ix0 h i
  rw [cmpf_apply, broadcastInDim_scalar_apply, constant_apply] at e
  exact real_of_abs_lt_inf (a i) e

/-- Every float argument the precondition speaks of is an array of real numbers. -/
theorem isReal_of_finite_inputs [Cert.Pre_finite_inputs.Facts]
    (a0 a1 a2 : FVec Ideal Sx .f32) (a3 : IVec Sm 32) (a4 a5 a6 a7 : FVec Ideal Sw .f32) (a8 : FVec Ideal Sb .f32)
    (h : Cert.Pre_finite_inputs.fn (F := Ideal) a0 a1 a2 a3 a4 a5 a6 a7 a8 = (fun _ => 1#1)) :
    IsReal a0 ∧ IsReal a1 ∧ IsReal a2 ∧ IsReal a4 ∧ IsReal a5 ∧ IsReal a6 ∧ IsReal a7 ∧ IsReal a8 := by
  have h0 := congrFun h ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨e0, e1⟩, e2⟩, e4⟩, e5⟩, e6⟩, e7⟩, e8⟩ := h0
  exact ⟨isReal_of_all _ _ _ a0 e0, isReal_of_all _ _ _ a1 e1, isReal_of_all _ _ _ a2 e2,
    isReal_of_all _ _ _ a4 e4, isReal_of_all _ _ _ a5 e5, isReal_of_all _ _ _ a6 e6,
    isReal_of_all _ _ _ a7 e7, isReal_of_all _ _ _ a8 e8⟩

end Cert.Attn

end
-- ==== Proof.KChain.lean ====
/-
  The kernel program's result, boundary by boundary: between its five launches @main only
  reshapes arrays ([2,2048,1024] ↔ [4096,1024], the bias [1024] → [1,1024]) and broadcasts one
  zero; every launch reads what the stretch before it left and no launch or stretch writes an
  argument. Reading the result array back through the eleven boundaries, with each launch's
  output array given as a function of its entry contents, yields the layer in the kernel's
  arrangement: three projections (plus a zero bias, which adds nothing), attention, and the
  output projection plus its bias.
-/
import proofs.«421860_j29489245454730_3_alg».proof.Proof.Gen.KernelIdeal.Frame
import proofs.«421860_j29489245454730_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Chain

open Idealize.ShloMosaic Idealize.ShloMosaic.TcCoe Idealize.SL.Sem Idealize.ShloMosaic.ValueIdx
open Cert.KernelIdeal Cert.KernelIdeal.Gen

/-! ## The arithmetic of the views: a linear layer on merged rows, read back as [batch, position, model] -/

section Pure
open Cert.Attn

/-- The merged-rows view read at row `2048·b + s` is the array at (b, s). -/
theorem rows_apply (x : Sx.Idx → EReal) (h : Sx.ShapeCasts Sr) (r : Fin 4096) (d : Fin 1024) (b : Fin 2) (s : Fin 2048)
    (hr : r.val = b.val * 2048 + s.val) : shapeCast Sr x h (ix2 r d) = x (ix3 b s d) := by
  apply shapeCast_apply
  rw [Shape.rowMajor_val_three, Shape.rowMajor_val_two]
  show (b.val * 2048 + s.val) * 1024 + d.val = r.val * 1024 + d.val
  rw [hr]

/-- A linear layer on the merged rows, viewed back as [batch, position, model], at one index. -/
theorem cast_linRows_apply (x : Sx.Idx → EReal) (w : Sw.Idx → EReal) (bias : Sb2.Idx → EReal)
    (h1 : Sx.ShapeCasts Sr) (h2 : Sr.ShapeCasts Sx) (i : Sx.Idx) :
    shapeCast Sx (linRows (shapeCast Sr x h1) w bias) h2 i
      = proj x w (i 0) (i 1) (i 2) + bias (ix2 (0 : Fin 1) (i 2)) := by
  rw [shapeCast_apply (linRows (shapeCast Sr x h1) w bias) h2 i (ix2 (rowOf (i 0) (i 1)) (i 2)) (by
    rw [Shape.rowMajor_val_three, Shape.rowMajor_val_two]
    show ((i 0).val * 2048 + (i 1).val) * 1024 + (i 2).val = ((i 0).val * 2048 + (i 1).val) * 1024 + (i 2).val
    rfl)]
  show (∑ d : Fin 1024, shapeCast Sr x h1 (ix2 (rowOf (i 0) (i 1)) d) * w (ix2 (i 2) d)) + bias (ix2 (0 : Fin 1) (i 2)) = _
  unfold proj
  congr 1
  refine Finset.sum_congr rfl fun d _ => ?_
  rw [rows_apply x h1 (rowOf (i 0) (i 1)) d (i 0) (i 1) rfl]

/-- With a zero bias the layer is the projection. -/
theorem cast_linRows_zero (x : Sx.Idx → EReal) (w : Sw.Idx → EReal) (bias : Sb2.Idx → EReal)
    (h1 : Sx.ShapeCasts Sr) (h2 : Sr.ShapeCasts Sx) (hb : ∀ j, bias j = 0) :
    shapeCast Sx (linRows (shapeCast Sr x h1) w bias) h2 = projA x w := by
  funext i
  rw [cast_linRows_apply, hb, add_zero]
  rfl

/-- With the bias vector viewed as a one-row matrix the layer is the output layer. -/
theorem cast_linRows_bias (a : Sx.Idx → EReal) (wo : Sw.Idx → EReal) (bo : Sb.Idx → EReal)
    (h1 : Sx.ShapeCasts Sr) (h2 : Sr.ShapeCasts Sx) (h3 : Sb.ShapeCasts Sb2) :
    shapeCast Sx (linRows (shapeCast Sr a h1) wo (shapeCast Sb2 bo h3)) h2 = outA a wo bo := by
  funext i
  rw [cast_linRows_apply]
  unfold outA
  congr 1
  apply shapeCast_apply
  rw [Shape.rowMajor_val_one, Shape.rowMajor_val_two]
  show (i 2).val = 0 * 1024 + (i 2).val
  omega

end Pure

/-- The contents a launch is entered with, as the launches' value lemmas take them. -/
abbrev Entry := (c : Dev nD) → (b : Ref sig .tc) → Buf (Elt Ideal) ((c : Thread nD τ).loc b)

/-! ## The contents of each array a launch or the return reads, boundary by boundary

Each lemma `x_k` says what array `x` holds at boundary `k` (odd `k`: after a host stretch; even `k`: after a
launch) as a function of the arguments as launched. A stretch or launch that does not write the array leaves what
the boundary before held; a reshape writes the view of its operand; a launch writes what its hypothesis says. -/

/-- What each of the five launches leaves in its output array, as a function of its entry contents: the hypotheses
    the reading below is relative to. -/
abbrev Leaves0 : Prop := ∀ (V : Entry) (c : Dev nD), (dat0 (F := Ideal) V c).arrAt 3 cfg0.N = Cert.Attn.linRows (V c main_v0) (V c main_arg4) (V c main_v4)
abbrev Leaves1 : Prop := ∀ (V : Entry) (c : Dev nD), (dat1 (F := Ideal) V c).arrAt 3 cfg1.N = Cert.Attn.linRows (V c main_v1) (V c main_arg5) (V c main_v7)
abbrev Leaves2 : Prop := ∀ (V : Entry) (c : Dev nD), (dat2 (F := Ideal) V c).arrAt 3 cfg2.N = Cert.Attn.linRows (V c main_v2) (V c main_arg6) (V c main_v10)
abbrev Leaves3 : Prop := ∀ (V : Entry) (c : Dev nD), (dat3 (F := Ideal) V c).arrAt 4 cfg3.N = Cert.Attn.attnKA (V c main_v6) (V c main_v9) (V c main_v12) (V c main_arg3)
abbrev Leaves4 : Prop := ∀ (V : Entry) (c : Dev nD), (dat4 (F := Ideal) V c).arrAt 3 cfg4.N = Cert.Attn.linRows (V c main_v14) (V c main_arg7) (V c main_v15)

variable (m : (ℓ : Loc nD τ sig) → Buf (Elt Ideal) ℓ) (ρ : Dev nD → PrngReg) (c : Dev nD)

local notation "rs" => shapeCasts_S2x2048x1024_S4096x1024
local notation "rb" => shapeCasts_S4096x1024_S2x2048x1024
local notation "bs" => shapeCasts_S1024_S1x1024

/-- The zero vector the first stretch broadcasts from the constant 0. -/
abbrev zvec : S1024.Idx → EReal := broadcastInDim S1024 ![] bcast_S_S1024 (constant (F := Ideal) S_ .f32 0x00000000#32)
/-- The same as a one-row matrix: the bias of the three projections. -/
abbrev zrow : S1x1024.Idx → EReal := shapeCast S1x1024 zvec bs

/-- Every entry of the zero row is 0. -/
theorem zrow_apply (j : S1x1024.Idx) : zrow j = 0 := by
  show Ideal.ofBits .f32 0x00000000#32 = 0
  exact Ideal.ofBits_zero_f32

/-- What the three projection launches leave (merged rows), as functions of the arguments as launched. -/
abbrev lin0 : S4096x1024.Idx → EReal := Cert.Attn.linRows (shapeCast S4096x1024 (m ((c : Thread nD τ).loc main_arg0)) rs) (m ((c : Thread nD τ).loc main_arg4)) zrow
abbrev lin1 : S4096x1024.Idx → EReal := Cert.Attn.linRows (shapeCast S4096x1024 (m ((c : Thread nD τ).loc main_arg1)) rs) (m ((c : Thread nD τ).loc main_arg5)) zrow
abbrev lin2 : S4096x1024.Idx → EReal := Cert.Attn.linRows (shapeCast S4096x1024 (m ((c : Thread nD τ).loc main_arg2)) rs) (m ((c : Thread nD τ).loc main_arg6)) zrow
/-- What the attention launch leaves. -/
abbrev att : S2x2048x1024.Idx → EReal :=
  Cert.Attn.attnKA (shapeCast S2x2048x1024 (lin0 m c) rb) (shapeCast S2x2048x1024 (lin1 m c) rb) (shapeCast S2x2048x1024 (lin2 m c) rb) (m ((c : Thread nD τ).loc main_arg3))
/-- What the output launch leaves (merged rows). -/
abbrev lin4 : S4096x1024.Idx → EReal :=
  Cert.Attn.linRows (shapeCast S4096x1024 (att m c) rs) (m ((c : Thread nD τ).loc main_arg7)) (shapeCast S1x1024 (m ((c : Thread nD τ).loc main_arg8)) bs)

/-! ### Boundary 1: after the first host stretch -/
theorem v0_1 : W1 (F := Ideal) m ρ c (Proc.devRef .tc main_v0) = (shapeCast S4096x1024 (m ((c : Thread nD τ).loc main_arg0)) rs) := by
  show StableHlo.after hostOps0 (W0 m ρ c) (Proc.devRef .tc main_v0) = _
  after_results
  all_goals rfl
theorem v1_1 : W1 (F := Ideal) m ρ c (Proc.devRef .tc main_v1) = (shapeCast S4096x1024 (m ((c : Thread nD τ).loc main_arg1)) rs) := by
  show StableHlo.after hostOps0 (W0 m ρ c) (Proc.devRef .tc main_v1) = _
  after_results
  all_goals rfl
theorem v2_1 : W1 (F := Ideal) m ρ c (Proc.devRef .tc main_v2) = (shapeCast S4096x1024 (m ((c : Thread nD τ).loc main_arg2)) rs) := by
  show StableHlo.after hostOps0 (W0 m ρ c) (Proc.devRef .tc main_v2) = _
  after_results
  all_goals rfl
theorem v3_1 : W1 (F := Ideal) m ρ c (Proc.devRef .tc main_v3) = zvec := by
  show StableHlo.after hostOps0 (W0 m ρ c) (Proc.devRef .tc main_v3) = _
  after_results
  all_goals rfl
theorem v4_1 : W1 (F := Ideal) m ρ c (Proc.devRef .tc main_v4) = zrow := by
  show StableHlo.after hostOps0 (W0 m ρ c) (Proc.devRef .tc main_v4) = _
  after_results
  all_goals rfl
theorem arg3_1 : W1 (F := Ideal) m ρ c (Proc.devRef .tc main_arg3) = (m ((c : Thread nD τ).loc main_arg3)) := by
  show StableHlo.after hostOps0 (W0 m ρ c) (Proc.devRef .tc main_arg3) = _
  after_results
  all_goals rfl
theorem arg4_1 : W1 (F := Ideal) m ρ c (Proc.devRef .tc main_arg4) = (m ((c : Thread nD τ).loc main_arg4)) := by
  show StableHlo.after hostOps0 (W0 m ρ c) (Proc.devRef .tc main_arg4) = _
  after_results
  all_goals rfl
theorem arg5_1 : W1 (F := Ideal) m ρ c (Proc.devRef .tc main_arg5) = (m ((c : Thread nD τ).loc main_arg5)) := by
  show StableHlo.after hostOps0 (W0 m ρ c) (Proc.devRef .tc main_arg5) = _
  after_results
  all_goals rfl
theorem arg6_1 : W1 (F := Ideal) m ρ c (Proc.devRef .tc main_arg6) = (m ((c : Thread nD τ).loc main_arg6)) := by
  show StableHlo.after hostOps0 (W0 m ρ c) (Proc.devRef .tc main_arg6) = _
  after_results
  all_goals rfl
theorem arg7_1 : W1 (F := Ideal) m ρ c (Proc.devRef .tc main_arg7) = (m ((c : Thread nD τ).loc main_arg7)) := by
  show StableHlo.after hostOps0 (W0 m ρ c) (Proc.devRef .tc main_arg7) = _
  after_results
  all_goals rfl
theorem arg8_1 : W1 (F := Ideal) m ρ c (Proc.devRef .tc main_arg8) = (m ((c : Thread nD τ).loc main_arg8)) := by
  show StableHlo.after hostOps0 (W0 m ρ c) (Proc.devRef .tc main_arg8) = _
  after_results
  all_goals rfl

/-! ### Boundary 2: after the query projection's launch -/
theorem v5_2 (h0 : Leaves0) : W2 (F := Ideal) m ρ c (Proc.devRef .tc main_v5) = lin0 m c :=
  (W2_arr (F := Ideal) m ρ c 3).trans ((h0 (V1 m ρ) c).trans (by
    show Cert.Attn.linRows (W1 m ρ c (Proc.devRef .tc main_v0)) (W1 m ρ c (Proc.devRef .tc main_arg4)) (W1 m ρ c (Proc.devRef .tc main_v4)) = _
    rw [v0_1 m ρ c, arg4_1 m ρ c, v4_1 m ρ c]))
theorem v1_2 : W2 (F := Ideal) m ρ c (Proc.devRef .tc main_v1) = (shapeCast S4096x1024 (m ((c : Thread nD τ).loc main_arg1)) rs) :=
  (W2_of_ne m ρ c main_v1 (by decide)).trans (v1_1 m ρ c)
theorem v2_2 : W2 (F := Ideal) m ρ c (Proc.devRef .tc main_v2) = (shapeCast S4096x1024 (m ((c : Thread nD τ).loc main_arg2)) rs) :=
  (W2_of_ne m ρ c main_v2 (by decide)).trans (v2_1 m ρ c)
theorem v3_2 : W2 (F := Ideal) m ρ c (Proc.devRef .tc main_v3) = zvec :=
  (W2_of_ne m ρ c main_v3 (by decide)).trans (v3_1 m ρ c)
theorem arg3_2 : W2 (F := Ideal) m ρ c (Proc.devRef .tc main_arg3) = (m ((c : Thread nD τ).loc main_arg3)) :=
  (W2_of_ne m ρ c main_arg3 (by decide)).trans (arg3_1 m ρ c)
theorem arg5_2 : W2 (F := Ideal) m ρ c (Proc.devRef .tc main_arg5) = (m ((c : Thread nD τ).loc main_arg5)) :=
  (W2_of_ne m ρ c main_arg5 (by decide)).trans (arg5_1 m ρ c)
theorem arg6_2 : W2 (F := Ideal) m ρ c (Proc.devRef .tc main_arg6) = (m ((c : Thread nD τ).loc main_arg6)) :=
  (W2_of_ne m ρ c main_arg6 (by decide)).trans (arg6_1 m ρ c)
theorem arg7_2 : W2 (F := Ideal) m ρ c (Proc.devRef .tc main_arg7) = (m ((c : Thread nD τ).loc main_arg7)) :=
  (W2_of_ne m ρ c main_arg7 (by decide)).trans (arg7_1 m ρ c)
theorem arg8_2 : W2 (F := Ideal) m ρ c (Proc.devRef .tc main_arg8) = (m ((c : Thread nD τ).loc main_arg8)) :=
  (W2_of_ne m ρ c main_arg8 (by decide)).trans (arg8_1 m ρ c)

/-! ### Boundary 3 -/
theorem v6_3 (h0 : Leaves0) : W3 (F := Ideal) m ρ c (Proc.devRef .tc main_v6) = (shapeCast S2x2048x1024 (lin0 m c) rb) := by
  show StableHlo.after hostOps1 (W2 m ρ c) (Proc.devRef .tc main_v6) = _
  after_results
  all_goals (rw [v5_2 m ρ c h0])
  all_goals rfl
theorem v7_3 : W3 (F := Ideal) m ρ c (Proc.devRef .tc main_v7) = zrow := by
  show StableHlo.after hostOps1 (W2 m ρ c) (Proc.devRef .tc main_v7) = _
  after_results
  all_goals (rw [v3_2 m ρ c])
  all_goals rfl
theorem v1_3 : W3 (F := Ideal) m ρ c (Proc.devRef .tc main_v1) = (shapeCast S4096x1024 (m ((c : Thread nD τ).loc main_arg1)) rs) := by
  show StableHlo.after hostOps1 (W2 m ρ c) (Proc.devRef .tc main_v1) = _
  after_results
  all_goals exact v1_2 m ρ c
theorem v2_3 : W3 (F := Ideal) m ρ c (Proc.devRef .tc main_v2) = (shapeCast S4096x1024 (m ((c : Thread nD τ).loc main_arg2)) rs) := by
  show StableHlo.after hostOps1 (W2 m ρ c) (Proc.devRef .tc main_v2) = _
  after_results
  all_goals exact v2_2 m ρ c
theorem v3_3 : W3 (F := Ideal) m ρ c (Proc.devRef .tc main_v3) = zvec := by
  show StableHlo.after hostOps1 (W2 m ρ c) (Proc.devRef .tc main_v3) = _
  after_results
  all_goals exact v3_2 m ρ c
theorem arg3_3 : W3 (F := Ideal) m ρ c (Proc.devRef .tc main_arg3) = (m ((c : Thread nD τ).loc main_arg3)) := by
  show StableHlo.after hostOps1 (W2 m ρ c) (Proc.devRef .tc main_arg3) = _
  after_results
  all_goals exact arg3_2 m ρ c
theorem arg5_3 : W3 (F := Ideal) m ρ c (Proc.devRef .tc main_arg5) = (m ((c : Thread nD τ).loc main_arg5)) := by
  show StableHlo.after hostOps1 (W2 m ρ c) (Proc.devRef .tc main_arg5) = _
  after_results
  all_goals exact arg5_2 m ρ c
theorem arg6_3 : W3 (F := Ideal) m ρ c (Proc.devRef .tc main_arg6) = (m ((c : Thread nD τ).loc main_arg6)) := by
  show StableHlo.after hostOps1 (W2 m ρ c) (Proc.devRef .tc main_arg6) = _
  after_results
  all_goals exact arg6_2 m ρ c
theorem arg7_3 : W3 (F := Ideal) m ρ c (Proc.devRef .tc main_arg7) = (m ((c : Thread nD τ).loc main_arg7)) := by
  show StableHlo.after hostOps1 (W2 m ρ c) (Proc.devRef .tc main_arg7) = _
  after_results
  all_goals exact arg7_2 m ρ c
theorem arg8_3 : W3 (F := Ideal) m ρ c (Proc.devRef .tc main_arg8) = (m ((c : Thread nD τ).loc main_arg8)) := by
  show StableHlo.after hostOps1 (W2 m ρ c) (Proc.devRef .tc main_arg8) = _
  after_results
  all_goals exact arg8_2 m ρ c

/-! ### Boundary 4: after the key projection's launch -/
theorem v8_4 (h1 : Leaves1) : W4 (F := Ideal) m ρ c (Proc.devRef .tc main_v8) = lin1 m c :=
  (W4_arr (F := Ideal) m ρ c 3).trans ((h1 (V3 m ρ) c).trans (by
    show Cert.Attn.linRows (W3 m ρ c (Proc.devRef .tc main_v1)) (W3 m ρ c (Proc.devRef .tc main_arg5)) (W3 m ρ c (Proc.devRef .tc main_v7)) = _
    rw [v1_3 m ρ c, arg5_3 m ρ c, v7_3 m ρ c]))
theorem v2_4 : W4 (F := Ideal) m ρ c (Proc.devRef .tc main_v2) = (shapeCast S4096x1024 (m ((c : Thread nD τ).loc main_arg2)) rs) :=
  (W4_of_ne m ρ c main_v2 (by decide)).trans (v2_3 m ρ c)
theorem v3_4 : W4 (F := Ideal) m ρ c (Proc.devRef .tc main_v3) = zvec :=
  (W4_of_ne m ρ c main_v3 (by decide)).trans (v3_3 m ρ c)
theorem v6_4 (h0 : Leaves0) : W4 (F := Ideal) m ρ c (Proc.devRef .tc main_v6) = (shapeCast S2x2048x1024 (lin0 m c) rb) :=
  (W4_of_ne m ρ c main_v6 (by decide)).trans (v6_3 m ρ c h0)
theorem arg3_4 : W4 (F := Ideal) m ρ c (Proc.devRef .tc main_arg3) = (m ((c : Thread nD τ).loc main_arg3)) :=
  (W4_of_ne m ρ c main_arg3 (by decide)).trans (arg3_3 m ρ c)
theorem arg6_4 : W4 (F := Ideal) m ρ c (Proc.devRef .tc main_arg6) = (m ((c : Thread nD τ).loc main_arg6)) :=
  (W4_of_ne m ρ c main_arg6 (by decide)).trans (arg6_3 m ρ c)
theorem arg7_4 : W4 (F := Ideal) m ρ c (Proc.devRef .tc main_arg7) = (m ((c : Thread nD τ).loc main_arg7)) :=
  (W4_of_ne m ρ c main_arg7 (by decide)).trans (arg7_3 m ρ c)
theorem arg8_4 : W4 (F := Ideal) m ρ c (Proc.devRef .tc main_arg8) = (m ((c : Thread nD τ).loc main_arg8)) :=
  (W4_of_ne m ρ c main_arg8 (by decide)).trans (arg8_3 m ρ c)

/-! ### Boundary 5 -/
theorem v9_5 (h1 : Leaves1) : W5 (F := Ideal) m ρ c (Proc.devRef .tc main_v9) = (shapeCast S2x2048x1024 (lin1 m c) rb) := by
  show StableHlo.after hostOps2 (W4 m ρ c) (Proc.devRef .tc main_v9) = _
  after_results
  all_goals (rw [v8_4 m ρ c h1])
  all_goals rfl
theorem v10_5 : W5 (F := Ideal) m ρ c (Proc.devRef .tc main_v10) = zrow := by
  show StableHlo.after hostOps2 (W4 m ρ c) (Proc.devRef .tc main_v10) = _
  after_results
  all_goals (rw [v3_4 m ρ c])
  all_goals rfl
theorem v2_5 : W5 (F := Ideal) m ρ c (Proc.devRef .tc main_v2) = (shapeCast S4096x1024 (m ((c : Thread nD τ).loc main_arg2)) rs) := by
  show StableHlo.after hostOps2 (W4 m ρ c) (Proc.devRef .tc main_v2) = _
  after_results
  all_goals exact v2_4 m ρ c
theorem v6_5 (h0 : Leaves0) : W5 (F := Ideal) m ρ c (Proc.devRef .tc main_v6) = (shapeCast S2x2048x1024 (lin0 m c) rb) := by
  show StableHlo.after hostOps2 (W4 m ρ c) (Proc.devRef .tc main_v6) = _
  after_results
  all_goals exact v6_4 m ρ c h0
theorem arg3_5 : W5 (F := Ideal) m ρ c (Proc.devRef .tc main_arg3) = (m ((c : Thread nD τ).loc main_arg3)) := by
  show StableHlo.after hostOps2 (W4 m ρ c) (Proc.devRef .tc main_arg3) = _
  after_results
  all_goals exact arg3_4 m ρ c
theorem arg6_5 : W5 (F := Ideal) m ρ c (Proc.devRef .tc main_arg6) = (m ((c : Thread nD τ).loc main_arg6)) := by
  show StableHlo.after hostOps2 (W4 m ρ c) (Proc.devRef .tc main_arg6) = _
  after_results
  all_goals exact arg6_4 m ρ c
theorem arg7_5 : W5 (F := Ideal) m ρ c (Proc.devRef .tc main_arg7) = (m ((c : Thread nD τ).loc main_arg7)) := by
  show StableHlo.after hostOps2 (W4 m ρ c) (Proc.devRef .tc main_arg7) = _
  after_results
  all_goals exact arg7_4 m ρ c
theorem arg8_5 : W5 (F := Ideal) m ρ c (Proc.devRef .tc main_arg8) = (m ((c : Thread nD τ).loc main_arg8)) := by
  show StableHlo.after hostOps2 (W4 m ρ c) (Proc.devRef .tc main_arg8) = _
  after_results
  all_goals exact arg8_4 m ρ c

/-! ### Boundary 6: after the value projection's launch -/
theorem v11_6 (h2 : Leaves2) : W6 (F := Ideal) m ρ c (Proc.devRef .tc main_v11) = lin2 m c :=
  (W6_arr (F := Ideal) m ρ c 3).trans ((h2 (V5 m ρ) c).trans (by
    show Cert.Attn.linRows (W5 m ρ c (Proc.devRef .tc main_v2)) (W5 m ρ c (Proc.devRef .tc main_arg6)) (W5 m ρ c (Proc.devRef .tc main_v10)) = _
    rw [v2_5 m ρ c, arg6_5 m ρ c, v10_5 m ρ c]))
theorem v6_6 (h0 : Leaves0) : W6 (F := Ideal) m ρ c (Proc.devRef .tc main_v6) = (shapeCast S2x2048x1024 (lin0 m c) rb) :=
  (W6_of_ne m ρ c main_v6 (by decide)).trans (v6_5 m ρ c h0)
theorem v9_6 (h1 : Leaves1) : W6 (F := Ideal) m ρ c (Proc.devRef .tc main_v9) = (shapeCast S2x2048x1024 (lin1 m c) rb) :=
  (W6_of_ne m ρ c main_v9 (by decide)).trans (v9_5 m ρ c h1)
theorem arg3_6 : W6 (F := Ideal) m ρ c (Proc.devRef .tc main_arg3) = (m ((c : Thread nD τ).loc main_arg3)) :=
  (W6_of_ne m ρ c main_arg3 (by decide)).trans (arg3_5 m ρ c)
theorem arg7_6 : W6 (F := Ideal) m ρ c (Proc.devRef .tc main_arg7) = (m ((c : Thread nD τ).loc main_arg7)) :=
  (W6_of_ne m ρ c main_arg7 (by decide)).trans (arg7_5 m ρ c)
theorem arg8_6 : W6 (F := Ideal) m ρ c (Proc.devRef .tc main_arg8) = (m ((c : Thread nD τ).loc main_arg8)) :=
  (W6_of_ne m ρ c main_arg8 (by decide)).trans (arg8_5 m ρ c)

/-! ### Boundary 7 -/
theorem v12_7 (h2 : Leaves2) : W7 (F := Ideal) m ρ c (Proc.devRef .tc main_v12) = (shapeCast S2x2048x1024 (lin2 m c) rb) := by
  show StableHlo.after hostOps3 (W6 m ρ c) (Proc.devRef .tc main_v12) = _
  after_results
  all_goals (rw [v11_6 m ρ c h2])
  all_goals rfl
theorem v6_7 (h0 : Leaves0) : W7 (F := Ideal) m ρ c (Proc.devRef .tc main_v6) = (shapeCast S2x2048x1024 (lin0 m c) rb) := by
  show StableHlo.after hostOps3 (W6 m ρ c) (Proc.devRef .tc main_v6) = _
  after_results
  all_goals exact v6_6 m ρ c h0
theorem v9_7 (h1 : Leaves1) : W7 (F := Ideal) m ρ c (Proc.devRef .tc main_v9) = (shapeCast S2x2048x1024 (lin1 m c) rb) := by
  show StableHlo.after hostOps3 (W6 m ρ c) (Proc.devRef .tc main_v9) = _
  after_results
  all_goals exact v9_6 m ρ c h1
theorem arg3_7 : W7 (F := Ideal) m ρ c (Proc.devRef .tc main_arg3) = (m ((c : Thread nD τ).loc main_arg3)) := by
  show StableHlo.after hostOps3 (W6 m ρ c) (Proc.devRef .tc main_arg3) = _
  after_results
  all_goals exact arg3_6 m ρ c
theorem arg7_7 : W7 (F := Ideal) m ρ c (Proc.devRef .tc main_arg7) = (m ((c : Thread nD τ).loc main_arg7)) := by
  show StableHlo.after hostOps3 (W6 m ρ c) (Proc.devRef .tc main_arg7) = _
  after_results
  all_goals exact arg7_6 m ρ c
theorem arg8_7 : W7 (F := Ideal) m ρ c (Proc.devRef .tc main_arg8) = (m ((c : Thread nD τ).loc main_arg8)) := by
  show StableHlo.after hostOps3 (W6 m ρ c) (Proc.devRef .tc main_arg8) = _
  after_results
  all_goals exact arg8_6 m ρ c

/-! ### Boundary 8: after the attention launch -/
theorem v13_8 (h0 : Leaves0) (h1 : Leaves1) (h2 : Leaves2) (h3 : Leaves3) : W8 (F := Ideal) m ρ c (Proc.devRef .tc main_v13) = att m c :=
  (W8_arr (F := Ideal) m ρ c 4).trans ((h3 (V7 m ρ) c).trans (by
    show Cert.Attn.attnKA (W7 m ρ c (Proc.devRef .tc main_v6)) (W7 m ρ c (Proc.devRef .tc main_v9)) (W7 m ρ c (Proc.devRef .tc main_v12)) (W7 m ρ c (Proc.devRef .tc main_arg3)) = _
    rw [v6_7 m ρ c h0, v9_7 m ρ c h1, v12_7 m ρ c h2, arg3_7 m ρ c]))
theorem arg7_8 : W8 (F := Ideal) m ρ c (Proc.devRef .tc main_arg7) = (m ((c : Thread nD τ).loc main_arg7)) :=
  (W8_of_ne m ρ c main_arg7 (by decide)).trans (arg7_7 m ρ c)
theorem arg8_8 : W8 (F := Ideal) m ρ c (Proc.devRef .tc main_arg8) = (m ((c : Thread nD τ).loc main_arg8)) :=
  (W8_of_ne m ρ c main_arg8 (by decide)).trans (arg8_7 m ρ c)

/-! ### Boundary 9 -/
theorem v14_9 (h0 : Leaves0) (h1 : Leaves1) (h2 : Leaves2) (h3 : Leaves3) : W9 (F := Ideal) m ρ c (Proc.devRef .tc main_v14) = (shapeCast S4096x1024 (att m c) rs) := by
  show StableHlo.after hostOps4 (W8 m ρ c) (Proc.devRef .tc main_v14) = _
  after_results
  all_goals (rw [v13_8 m ρ c h0 h1 h2 h3])
  all_goals rfl
theorem v15_9 : W9 (F := Ideal) m ρ c (Proc.devRef .tc main_v15) = (shapeCast S1x1024 (m ((c : Thread nD τ).loc main_arg8)) bs) := by
  show StableHlo.after hostOps4 (W8 m ρ c) (Proc.devRef .tc main_v15) = _
  after_results
  all_goals (rw [arg8_8 m ρ c])
  all_goals rfl
theorem arg7_9 : W9 (F := Ideal) m ρ c (Proc.devRef .tc main_arg7) = (m ((c : Thread nD τ).loc main_arg7)) := by
  show StableHlo.after hostOps4 (W8 m ρ c) (Proc.devRef .tc main_arg7) = _
  after_results
  all_goals exact arg7_8 m ρ c

/-! ### Boundary 10: after the output projection's launch -/
theorem v16_10 (h0 : Leaves0) (h1 : Leaves1) (h2 : Leaves2) (h3 : Leaves3) (h4 : Leaves4) : W10 (F := Ideal) m ρ c (Proc.devRef .tc main_v16) = lin4 m c :=
  (W10_arr (F := Ideal) m ρ c 3).trans ((h4 (V9 m ρ) c).trans (by
    show Cert.Attn.linRows (W9 m ρ c (Proc.devRef .tc main_v14)) (W9 m ρ c (Proc.devRef .tc main_arg7)) (W9 m ρ c (Proc.devRef .tc main_v15)) = _
    rw [v14_9 m ρ c h0 h1 h2 h3, arg7_9 m ρ c, v15_9 m ρ c]))

/-! ### Boundary 11: the result -/
theorem v17_11 (h0 : Leaves0) (h1 : Leaves1) (h2 : Leaves2) (h3 : Leaves3) (h4 : Leaves4) : W11 (F := Ideal) m ρ c (Proc.devRef .tc main_v17) = (shapeCast S2x2048x1024 (lin4 m c) rb) := by
  show StableHlo.after hostOps5 (W10 m ρ c) (Proc.devRef .tc main_v17) = _
  after_results
  all_goals (rw [v16_10 m ρ c h0 h1 h2 h3 h4])
  all_goals rfl

/-- The result array at the last boundary is the layer (kernel's arrangement) of the arguments as launched,
    given what each of the five launches leaves in its output array as a function of its entry contents. -/
theorem result_eq_of (m : (ℓ : Loc nD τ sig) → Buf (Elt Ideal) ℓ) (ρ : Dev nD → PrngReg) (c : Dev nD)
    (h0 : ∀ (V : Entry) (c : Dev nD), (dat0 (F := Ideal) V c).arrAt 3 cfg0.N = Cert.Attn.linRows (V c main_v0) (V c main_arg4) (V c main_v4))
    (h1 : ∀ (V : Entry) (c : Dev nD), (dat1 (F := Ideal) V c).arrAt 3 cfg1.N = Cert.Attn.linRows (V c main_v1) (V c main_arg5) (V c main_v7))
    (h2 : ∀ (V : Entry) (c : Dev nD), (dat2 (F := Ideal) V c).arrAt 3 cfg2.N = Cert.Attn.linRows (V c main_v2) (V c main_arg6) (V c main_v10))
    (h3 : ∀ (V : Entry) (c : Dev nD), (dat3 (F := Ideal) V c).arrAt 4 cfg3.N = Cert.Attn.attnKA (V c main_v6) (V c main_v9) (V c main_v12) (V c main_arg3))
    (h4 : ∀ (V : Entry) (c : Dev nD), (dat4 (F := Ideal) V c).arrAt 3 cfg4.N = Cert.Attn.linRows (V c main_v14) (V c main_arg7) (V c main_v15)) :
    W11 (F := Ideal) m ρ c (Proc.devRef .tc main_v17)
      = Cert.Attn.layerK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  refine (v17_11 m ρ c h0 h1 h2 h3 h4).trans ?_
  unfold Cert.Attn.layerK
  show shapeCast Cert.Attn.Sx (Cert.Attn.linRows (shapeCast Cert.Attn.Sr (att m c) rs) (m ((c : Thread nD τ).loc main_arg7)) (shapeCast Cert.Attn.Sb2 (m ((c : Thread nD τ).loc main_arg8)) bs)) rb = _
  rw [cast_linRows_bias]
  show Cert.Attn.outA (Cert.Attn.attnKA
      (shapeCast Cert.Attn.Sx (Cert.Attn.linRows (shapeCast Cert.Attn.Sr (m ((c : Thread nD τ).loc main_arg0)) rs) (m ((c : Thread nD τ).loc main_arg4)) zrow) rb)
      (shapeCast Cert.Attn.Sx (Cert.Attn.linRows (shapeCast Cert.Attn.Sr (m ((c : Thread nD τ).loc main_arg1)) rs) (m ((c : Thread nD τ).loc main_arg5)) zrow) rb)
      (shapeCast Cert.Attn.Sx (Cert.Attn.linRows (shapeCast Cert.Attn.Sr (m ((c : Thread nD τ).loc main_arg2)) rs) (m ((c : Thread nD τ).loc main_arg6)) zrow) rb)
      (m ((c : Thread nD τ).loc main_arg3))) (m ((c : Thread nD τ).loc main_arg7)) (m ((c : Thread nD τ).loc main_arg8)) = _
  rw [cast_linRows_zero _ _ _ rs rb zrow_apply, cast_linRows_zero _ _ _ rs rb zrow_apply, cast_linRows_zero _ _ _ rs rb zrow_apply]

end Cert.KernelIdeal.Chain

end
-- ==== Proof.KLin0.lean ====
/-
  The first projection launch, read as a value: on a grid of 8 row tiles of 512 rows, each
  point loads its tile of `x`, the whole weight matrix and the bias row, and stores
  `x_tile · wᵀ + bias` (the product onto a zero accumulator, every format change the
  identity at the extended reals). The 8 tiles fill the 4096 rows, so the array the launch
  leaves is `x · wᵀ + bias`, entry by entry.
-/
import proofs.«421860_j29489245454730_3_alg».proof.Proof.Gen.KernelIdeal.Frame
import proofs.«421860_j29489245454730_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Lin0

open Idealize.ShloMosaic Idealize.ShloMosaic.TcCoe Idealize.SL.Sem Idealize.ShloMosaic.ValueIdx
open Cert.KernelIdeal Cert.KernelIdeal.Gen

/-! ## The tile product at an index -/

theorem lhs_D_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_D_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_D_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_D_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The tile product onto the zero accumulator at (p, q): row p of the left block against row q of
    the right block, summed over the 1024 columns. -/
theorem matmul_at (a : FVec Ideal S512x1024 .bf16) (b : FVec Ideal S1024x1024 .bf16) (p : Fin 512) (q : Fin 1024) :
    FloatOps.matmul dot_S512x1024_S1024x1024_S512x1024_1_1_0_0_n_n none a b (constant S512x1024 .f32 0x00000000#32) (ix2 p q)
      = ∑ k : Fin 1024, a (ix2 p k) * b (ix2 q k) := by
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun ax => Fin.ext (by
    match ax with
    | ⟨0, _⟩ => exact lhs_D_0 _ _
    | ⟨1, _⟩ => exact (lhs_D_1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun ax => Fin.ext (by
    match ax with
    | ⟨0, _⟩ => exact rhs_D_0 _ _
    | ⟨1, _⟩ => exact (rhs_D_1 _ _).trans hk)
  rw [el, er]

/-- What one grid point stores, at (p, q) of its tile: the product row plus the bias entry. -/
theorem pay_at (x0 : Vec Ideal S512x1024 .f32) (x1 : Vec Ideal S1024x1024 .f32) (x2 : Vec Ideal S1x1024 .f32) (p : Fin 512) (q : Fin 1024) :
    k0_pay1 (F := Ideal) x0 x1 x2 (ix2 p q) = (∑ k : Fin 1024, x0 (ix2 p k) * x1 (ix2 q k)) + x2 (ix2 (0 : Fin 1) q) := by
  unfold k0_pay1
  rw [shapeCast_self, shapeCast_self]
  show FloatOps.matmul (F := Ideal) dot_S512x1024_S1024x1024_S512x1024_1_1_0_0_n_n none (x0 : FVec Ideal S512x1024 .bf16) (x1 : FVec Ideal S1024x1024 .bf16) (constant (F := Ideal) S512x1024 .f32 0x00000000#32) (ix2 p q)
      + broadcastTo S512x1024 x2 broadcasts_S1x1024_S512x1024 (ix2 p q) = _
  rw [matmul_at x0 x1 p q, broadcastTo_1b_ab_apply x2 broadcasts_S1x1024_S512x1024 p q]

/-- The same entry against whole arrays: when row p of the left block is row `i 0` of `X`, row q of
    the right block is row `i 1` of `W`, and the bias block's entry q is `B`'s entry `i 1`, the stored
    entry is `X · Wᵀ + B` at `i`. -/
theorem tile_at (X : Cert.Attn.Sr.Idx → EReal) (W : Cert.Attn.Sw.Idx → EReal) (B : Cert.Attn.Sb2.Idx → EReal)
    (x0 : Vec Ideal S512x1024 .f32) (x1 : Vec Ideal S1024x1024 .f32) (x2 : Vec Ideal S1x1024 .f32)
    (p : Fin 512) (q : Fin 1024) (i : Cert.Attn.Sr.Idx)
    (h0 : ∀ k : Fin 1024, x0 (ix2 p k) = X (ix2 (i 0) k)) (h1 : ∀ k : Fin 1024, x1 (ix2 q k) = W (ix2 (i 1) k))
    (h2 : x2 (ix2 (0 : Fin 1) q) = B (ix2 (0 : Fin 1) (i 1))) :
    k0_pay1 (F := Ideal) x0 x1 x2 (ix2 p q) = Cert.Attn.linRows X W B i := by
  rw [pay_at, h2]
  exact congrArg (· + B (ix2 (0 : Fin 1) (i 1))) (Finset.sum_congr rfl fun k _ => by rw [h0 k, h1 k])

/-! ## From the tiles to the array -/

theorem off_zero : (![0, 0] : Fin 2 → Nat) = fun _ => 0 := funext fun a => by fin_cases a <;> rfl

/-- The index maps, decided over the 8 grid points: the row tile of `x` moves with the output's row
    tile, which is the point's own number; the weights and the bias are one block each; there is one
    column tile. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point `t` writes back is tile `t` of `x · wᵀ + bias` of the arrays as the launch finds them. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Attn.linRows (V c main_v0) (V c main_arg4) (V c main_v4)) := by
  show (cfg0.win 3).cut (grid0.coords t) ((dat0 V c).after 3 t) = _
  rw [after0_3]
  unfold out0_3
  rw [View.canon_unit_zero off_zero]
  simp only [View.ld_unit_zero (S := S512x1024) off_zero, View.ld_unit_zero (S := S1024x1024) off_zero, View.ld_unit_zero (S := S1x1024) off_zero]
  obtain ⟨e00, e01, e10, e11, e20, e21, e30, e31⟩ := idx_facts t
  funext j
  obtain ⟨p, q, rfl⟩ : ∃ (p : Fin 512) (q : Fin 1024), j = ix2 p q := ⟨j 0, j 1, eq_ix2 j⟩
  refine tile_at (V c main_v0) (V c main_arg4) (V c main_v4) (iblk0 V c 0 t) (iblk0 V c 1 t) (iblk0 V c 2 t) p q
    (((cfg0.win 3).blk t).view.emb (ix2 p q)) (fun k => ?_) (fun k => ?_) ?_
  · show V c main_v0 (((cfg0.win 0).blk t).view.emb (ix2 p k)) = V c main_v0 (ix2 ((((cfg0.win 3).blk t).view.emb (ix2 p q)) 0) k)
    refine congrArg (V c main_v0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k.val = k.val; omega
  · show V c main_arg4 (((cfg0.win 1).blk t).view.emb (ix2 q k)) = V c main_arg4 (ix2 ((((cfg0.win 3).blk t).view.emb (ix2 p q)) 1) k)
    refine congrArg (V c main_arg4) (funext fun a => Fin.ext ?_)
    match a with
    | ⟨0, _⟩ => show win0_1.index t (0 : Fin 2) * 1024 + 1 * q.val = win0_3.index t (1 : Fin 2) * 1024 + 1 * q.val; omega
    | ⟨1, _⟩ => show win0_1.index t (1 : Fin 2) * 1024 + 1 * k.val = k.val; omega
  · show V c main_v4 (((cfg0.win 2).blk t).view.emb (ix2 (0 : Fin 1) q)) = V c main_v4 (ix2 (0 : Fin 1) ((((cfg0.win 3).blk t).view.emb (ix2 p q)) 1))
    refine congrArg (V c main_v4) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega

/-- An index of the output array is in point `t`'s tile iff each coordinate is in the tile's range. -/
theorem mem_blk (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v5).slice (win0_3.rect t)).set ↔ _
  rw [View.set_slice_whole, Rect.mem_set_unit]
  exact Iff.rfl

/-- Every entry of the output array is written back by some point: row r by point r / 512. -/
theorem cover (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hN : grid0.N = 8 := N_0
  have ht : (i 0).val / 512 < grid0.N := by omega
  obtain ⟨-, -, -, -, -, -, e30, e31⟩ := idx_facts ⟨(i 0).val / 512, ht⟩
  have e30' : win0_3.index ⟨(i 0).val / 512, ht⟩ (0 : Fin 2) = (i 0).val / 512 := e30
  refine ⟨⟨(i 0).val / 512, ht⟩, flush0_3 _, ?_⟩
  rw [mem_blk]
  intro a
  match a with
  | ⟨0, _⟩ => show win0_3.index ⟨(i 0).val / 512, ht⟩ (0 : Fin 2) * 512 ≤ (i 0).val ∧ (i 0).val < win0_3.index ⟨(i 0).val / 512, ht⟩ (0 : Fin 2) * 512 + 512; omega
  | ⟨1, _⟩ => show win0_3.index ⟨(i 0).val / 512, ht⟩ (1 : Fin 2) * 1024 ≤ (i 1).val ∧ (i 1).val < win0_3.index ⟨(i 0).val / 512, ht⟩ (1 : Fin 2) * 1024 + 1024; omega

/-- What launch 0 leaves in its output array, for any contents `V` it is entered with. -/
theorem value (V : (c : Dev nD) → (b : Ref sig .tc) → Buf (Elt Ideal) ((c : Thread nD τ).loc b)) (c : Dev nD) :
    (dat0 (F := Ideal) V c).arrAt 3 cfg0.N = Cert.Attn.linRows (V c main_v0) (V c main_arg4) (V c main_v4) :=
  (dat0 (F := Ideal) V c).arrAt_eq_of_cover 3 (Cert.Attn.linRows (V c main_v0) (V c main_arg4) (V c main_v4))
    (fun t _ => flushed_eq V c t) cover

end Cert.KernelIdeal.Lin0

end
-- ==== Proof.KLin1.lean ====
/-
  The second projection launch, read as a value: on a grid of 8 row tiles of 512 rows, each
  point loads its tile of `x`, the whole weight matrix and the bias row, and stores
  `x_tile · wᵀ + bias` (the product onto a zero accumulator, every format change the
  identity at the extended reals). The 8 tiles fill the 4096 rows, so the array the launch
  leaves is `x · wᵀ + bias`, entry by entry.
-/
import proofs.«421860_j29489245454730_3_alg».proof.Proof.Gen.KernelIdeal.Frame
import proofs.«421860_j29489245454730_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Lin1

open Idealize.ShloMosaic Idealize.ShloMosaic.TcCoe Idealize.SL.Sem Idealize.ShloMosaic.ValueIdx
open Cert.KernelIdeal Cert.KernelIdeal.Gen

/-! ## The tile product at an index -/

theorem lhs_D_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_D_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_D_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_D_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The tile product onto the zero accumulator at (p, q): row p of the left block against row q of
    the right block, summed over the 1024 columns. -/
theorem matmul_at (a : FVec Ideal S512x1024 .bf16) (b : FVec Ideal S1024x1024 .bf16) (p : Fin 512) (q : Fin 1024) :
    FloatOps.matmul dot_S512x1024_S1024x1024_S512x1024_1_1_0_0_n_n none a b (constant S512x1024 .f32 0x00000000#32) (ix2 p q)
      = ∑ k : Fin 1024, a (ix2 p k) * b (ix2 q k) := by
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun ax => Fin.ext (by
    match ax with
    | ⟨0, _⟩ => exact lhs_D_0 _ _
    | ⟨1, _⟩ => exact (lhs_D_1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun ax => Fin.ext (by
    match ax with
    | ⟨0, _⟩ => exact rhs_D_0 _ _
    | ⟨1, _⟩ => exact (rhs_D_1 _ _).trans hk)
  rw [el, er]

/-- What one grid point stores, at (p, q) of its tile: the product row plus the bias entry. -/
theorem pay_at (x0 : Vec Ideal S512x1024 .f32) (x1 : Vec Ideal S1024x1024 .f32) (x2 : Vec Ideal S1x1024 .f32) (p : Fin 512) (q : Fin 1024) :
    k1_pay1 (F := Ideal) x0 x1 x2 (ix2 p q) = (∑ k : Fin 1024, x0 (ix2 p k) * x1 (ix2 q k)) + x2 (ix2 (0 : Fin 1) q) := by
  unfold k1_pay1
  rw [shapeCast_self, shapeCast_self]
  show FloatOps.matmul (F := Ideal) dot_S512x1024_S1024x1024_S512x1024_1_1_0_0_n_n none (x0 : FVec Ideal S512x1024 .bf16) (x1 : FVec Ideal S1024x1024 .bf16) (constant (F := Ideal) S512x1024 .f32 0x00000000#32) (ix2 p q)
      + broadcastTo S512x1024 x2 broadcasts_S1x1024_S512x1024 (ix2 p q) = _
  rw [matmul_at x0 x1 p q, broadcastTo_1b_ab_apply x2 broadcasts_S1x1024_S512x1024 p q]

/-- The same entry against whole arrays: when row p of the left block is row `i 0` of `X`, row q of
    the right block is row `i 1` of `W`, and the bias block's entry q is `B`'s entry `i 1`, the stored
    entry is `X · Wᵀ + B` at `i`. -/
theorem tile_at (X : Cert.Attn.Sr.Idx → EReal) (W : Cert.Attn.Sw.Idx → EReal) (B : Cert.Attn.Sb2.Idx → EReal)
    (x0 : Vec Ideal S512x1024 .f32) (x1 : Vec Ideal S1024x1024 .f32) (x2 : Vec Ideal S1x1024 .f32)
    (p : Fin 512) (q : Fin 1024) (i : Cert.Attn.Sr.Idx)
    (h0 : ∀ k : Fin 1024, x0 (ix2 p k) = X (ix2 (i 0) k)) (h1 : ∀ k : Fin 1024, x1 (ix2 q k) = W (ix2 (i 1) k))
    (h2 : x2 (ix2 (0 : Fin 1) q) = B (ix2 (0 : Fin 1) (i 1))) :
    k1_pay1 (F := Ideal) x0 x1 x2 (ix2 p q) = Cert.Attn.linRows X W B i := by
  rw [pay_at, h2]
  exact congrArg (· + B (ix2 (0 : Fin 1) (i 1))) (Finset.sum_congr rfl fun k _ => by rw [h0 k, h1 k])

/-! ## From the tiles to the array -/

theorem off_zero : (![0, 0] : Fin 2 → Nat) = fun _ => 0 := funext fun a => by fin_cases a <;> rfl

/-- The index maps, decided over the 8 grid points: the row tile of `x` moves with the output's row
    tile, which is the point's own number; the weights and the bias are one block each; there is one
    column tile. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` writes back is tile `t` of `x · wᵀ + bias` of the arrays as the launch finds them. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Attn.linRows (V c main_v1) (V c main_arg5) (V c main_v7)) := by
  show (cfg1.win 3).cut (grid1.coords t) ((dat1 V c).after 3 t) = _
  rw [after1_3]
  unfold out1_3
  rw [View.canon_unit_zero off_zero]
  simp only [View.ld_unit_zero (S := S512x1024) off_zero, View.ld_unit_zero (S := S1024x1024) off_zero, View.ld_unit_zero (S := S1x1024) off_zero]
  obtain ⟨e00, e01, e10, e11, e20, e21, e30, e31⟩ := idx_facts t
  funext j
  obtain ⟨p, q, rfl⟩ : ∃ (p : Fin 512) (q : Fin 1024), j = ix2 p q := ⟨j 0, j 1, eq_ix2 j⟩
  refine tile_at (V c main_v1) (V c main_arg5) (V c main_v7) (iblk1 V c 0 t) (iblk1 V c 1 t) (iblk1 V c 2 t) p q
    (((cfg1.win 3).blk t).view.emb (ix2 p q)) (fun k => ?_) (fun k => ?_) ?_
  · show V c main_v1 (((cfg1.win 0).blk t).view.emb (ix2 p k)) = V c main_v1 (ix2 ((((cfg1.win 3).blk t).view.emb (ix2 p q)) 0) k)
    refine congrArg (V c main_v1) (funext fun a => Fin.ext ?_)
    match a with
    | ⟨0, _⟩ => show win1_0.index t (0 : Fin 2) * 512 + 1 * p.val = win1_3.index t (0 : Fin 2) * 512 + 1 * p.val; omega
    | ⟨1, _⟩ => show win1_0.index t (1 : Fin 2) * 1024 + 1 * k.val = k.val; omega
  · show V c main_arg5 (((cfg1.win 1).blk t).view.emb (ix2 q k)) = V c main_arg5 (ix2 ((((cfg1.win 3).blk t).view.emb (ix2 p q)) 1) k)
    refine congrArg (V c main_arg5) (funext fun a => Fin.ext ?_)
    match a with
    | ⟨0, _⟩ => show win1_1.index t (0 : Fin 2) * 1024 + 1 * q.val = win1_3.index t (1 : Fin 2) * 1024 + 1 * q.val; omega
    | ⟨1, _⟩ => show win1_1.index t (1 : Fin 2) * 1024 + 1 * k.val = k.val; omega
  · show V c main_v7 (((cfg1.win 2).blk t).view.emb (ix2 (0 : Fin 1) q)) = V c main_v7 (ix2 (0 : Fin 1) ((((cfg1.win 3).blk t).view.emb (ix2 p q)) 1))
    refine congrArg (V c main_v7) (funext fun a => Fin.ext ?_)
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega

/-- An index of the output array is in point `t`'s tile iff each coordinate is in the tile's range. -/
theorem mem_blk (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v8).slice (win1_3.rect t)).set ↔ _
  rw [View.set_slice_whole, Rect.mem_set_unit]
  exact Iff.rfl

/-- Every entry of the output array is written back by some point: row r by point r / 512. -/
theorem cover (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  have hN : grid1.N = 8 := N_1
  have ht : (i 0).val / 512 < grid1.N := by omega
  obtain ⟨-, -, -, -, -, -, e30, e31⟩ := idx_facts ⟨(i 0).val / 512, ht⟩
  have e30' : win1_3.index ⟨(i 0).val / 512, ht⟩ (0 : Fin 2) = (i 0).val / 512 := e30
  refine ⟨⟨(i 0).val / 512, ht⟩, flush1_3 _, ?_⟩
  rw [mem_blk]
  intro a
  match a with
  | ⟨0, _⟩ => show win1_3.index ⟨(i 0).val / 512, ht⟩ (0 : Fin 2) * 512 ≤ (i 0).val ∧ (i 0).val < win1_3.index ⟨(i 0).val / 512, ht⟩ (0 : Fin 2) * 512 + 512; omega
  | ⟨1, _⟩ => show win1_3.index ⟨(i 0).val / 512, ht⟩ (1 : Fin 2) * 1024 ≤ (i 1).val ∧ (i 1).val < win1_3.index ⟨(i 0).val / 512, ht⟩ (1 : Fin 2) * 1024 + 1024; omega

/-- What launch 1 leaves in its output array, for any contents `V` it is entered with. -/
theorem value (V : (c : Dev nD) → (b : Ref sig .tc) → Buf (Elt Ideal) ((c : Thread nD τ).loc b)) (c : Dev nD) :
    (dat1 (F := Ideal) V c).arrAt 3 cfg1.N = Cert.Attn.linRows (V c main_v1) (V c main_arg5) (V c main_v7) :=
  (dat1 (F := Ideal) V c).arrAt_eq_of_cover 3 (Cert.Attn.linRows (V c main_v1) (V c main_arg5) (V c main_v7))
    (fun t _ => flushed_eq V c t) cover

end Cert.KernelIdeal.Lin1

end
-- ==== Proof.KLin2.lean ====
/-
  The third projection launch, read as a value: on a grid of 8 row tiles of 512 rows, each
  point loads its tile of `x`, the whole weight matrix and the bias row, and stores
  `x_tile · wᵀ + bias` (the product onto a zero accumulator, every format change the
  identity at the extended reals). The 8 tiles fill the 4096 rows, so the array the launch
  leaves is `x · wᵀ + bias`, entry by entry.
-/
import proofs.«421860_j29489245454730_3_alg».proof.Proof.Gen.KernelIdeal.Frame
import proofs.«421860_j29489245454730_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Lin2

open Idealize.ShloMosaic Idealize.ShloMosaic.TcCoe Idealize.SL.Sem Idealize.ShloMosaic.ValueIdx
open Cert.KernelIdeal Cert.KernelIdeal.Gen

/-! ## The tile product at an index -/

theorem lhs_D_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_D_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_D_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_D_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The tile product onto the zero accumulator at (p, q): row p of the left block against row q of
    the right block, summed over the 1024 columns. -/
theorem matmul_at (a : FVec Ideal S512x1024 .bf16) (b : FVec Ideal S1024x1024 .bf16) (p : Fin 512) (q : Fin 1024) :
    FloatOps.matmul dot_S512x1024_S1024x1024_S512x1024_1_1_0_0_n_n none a b (constant S512x1024 .f32 0x00000000#32) (ix2 p q)
      = ∑ k : Fin 1024, a (ix2 p k) * b (ix2 q k) := by
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun ax => Fin.ext (by
    match ax with
    | ⟨0, _⟩ => exact lhs_D_0 _ _
    | ⟨1, _⟩ => exact (lhs_D_1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun ax => Fin.ext (by
    match ax with
    | ⟨0, _⟩ => exact rhs_D_0 _ _
    | ⟨1, _⟩ => exact (rhs_D_1 _ _).trans hk)
  rw [el, er]

/-- What one grid point stores, at (p, q) of its tile: the product row plus the bias entry. -/
theorem pay_at (x0 : Vec Ideal S512x1024 .f32) (x1 : Vec Ideal S1024x1024 .f32) (x2 : Vec Ideal S1x1024 .f32) (p : Fin 512) (q : Fin 1024) :
    k2_pay1 (F := Ideal) x0 x1 x2 (ix2 p q) = (∑ k : Fin 1024, x0 (ix2 p k) * x1 (ix2 q k)) + x2 (ix2 (0 : Fin 1) q) := by
  unfold k2_pay1
  rw [shapeCast_self, shapeCast_self]
  show FloatOps.matmul (F := Ideal) dot_S512x1024_S1024x1024_S512x1024_1_1_0_0_n_n none (x0 : FVec Ideal S512x1024 .bf16) (x1 : FVec Ideal S1024x1024 .bf16) (constant (F := Ideal) S512x1024 .f32 0x00000000#32) (ix2 p q)
      + broadcastTo S512x1024 x2 broadcasts_S1x1024_S512x1024 (ix2 p q) = _
  rw [matmul_at x0 x1 p q, broadcastTo_1b_ab_apply x2 broadcasts_S1x1024_S512x1024 p q]

/-- The same entry against whole arrays: when row p of the left block is row `i 0` of `X`, row q of
    the right block is row `i 1` of `W`, and the bias block's entry q is `B`'s entry `i 1`, the stored
    entry is `X · Wᵀ + B` at `i`. -/
theorem tile_at (X : Cert.Attn.Sr.Idx → EReal) (W : Cert.Attn.Sw.Idx → EReal) (B : Cert.Attn.Sb2.Idx → EReal)
    (x0 : Vec Ideal S512x1024 .f32) (x1 : Vec Ideal S1024x1024 .f32) (x2 : Vec Ideal S1x1024 .f32)
    (p : Fin 512) (q : Fin 1024) (i : Cert.Attn.Sr.Idx)
    (h0 : ∀ k : Fin 1024, x0 (ix2 p k) = X (ix2 (i 0) k)) (h1 : ∀ k : Fin 1024, x1 (ix2 q k) = W (ix2 (i 1) k))
    (h2 : x2 (ix2 (0 : Fin 1) q) = B (ix2 (0 : Fin 1) (i 1))) :
    k2_pay1 (F := Ideal) x0 x1 x2 (ix2 p q) = Cert.Attn.linRows X W B i := by
  rw [pay_at, h2]
  exact congrArg (· + B (ix2 (0 : Fin 1) (i 1))) (Finset.sum_congr rfl fun k _ => by rw [h0 k, h1 k])

/-! ## From the tiles to the array -/

theorem off_zero : (![0, 0] : Fin 2 → Nat) = fun _ => 0 := funext fun a => by fin_cases a <;> rfl

/-- The index maps, decided over the 8 grid points: the row tile of `x` moves with the output's row
    tile, which is the point's own number; the weights and the bias are one block each; there is one
    column tile. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- What point `t` writes back is tile `t` of `x · wᵀ + bias` of the arrays as the launch finds them. -/
theorem flushed_eq (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal) (Cert.Attn.linRows (V c main_v2) (V c main_arg6) (V c main_v10)) := by
  show (cfg2.win 3).cut (grid2.coords t) ((dat2 V c).after 3 t) = _
  rw [after2_3]
  unfold out2_3
  rw [View.canon_unit_zero off_zero]
  simp only [View.ld_unit_zero (S := S512x1024) off_zero, View.ld_unit_zero (S := S1024x1024) off_zero, View.ld_unit_zero (S := S1x1024) off_zero]
  obtain ⟨e00, e01, e10, e11, e20, e21, e30, e31⟩ := idx_facts t
  funext j
  obtain ⟨p, q, rfl⟩ : ∃ (p : Fin 512) (q : Fin 1024), j = ix2 p q := ⟨j 0, j 1, eq_ix2 j⟩
  refine tile_at (V c main_v2) (V c main_arg6) (V c main_v10) (iblk2 V c 0 t) (iblk2 V c 1 t) (iblk2 V c 2 t) p q
    (((cfg2.win 3).blk t).view.emb (ix2 p q)) (fun k => ?_) (fun k => ?_) ?_
  · show V c main_v2 (((cfg2.win 0).blk t).view.emb (ix2 p k)) = V c main_v2 (ix2 ((((cfg2.win 3).blk t).view.emb (ix2 p q)) 0) k)
    refine congrArg (V c main_v2) (funext fun a => Fin.ext ?_)
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  · show V c main_arg6 (((cfg2.win 1).blk t).view.emb (ix2 q k)) = V c main_arg6 (ix2 ((((cfg2.win 3).blk t).view.emb (ix2 p q)) 1) k)
    refine congrArg (V c main_arg6) (funext fun a => Fin.ext ?_)
    match a with
    | ⟨0, _⟩ => show win2_1.index t (0 : Fin 2) * 1024 + 1 * q.val = win2_3.index t (1 : Fin 2) * 1024 + 1 * q.val; omega
    | ⟨1, _⟩ => show win2_1.index t (1 : Fin 2) * 1024 + 1 * k.val = k.val; omega
  · show V c main_v10 (((cfg2.win 2).blk t).view.emb (ix2 (0 : Fin 1) q)) = V c main_v10 (ix2 (0 : Fin 1) ((((cfg2.win 3).blk t).view.emb (ix2 p q)) 1))
    refine congrArg (V c main_v10) (funext fun a => Fin.ext ?_)
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega

/-- An index of the output array is in point `t`'s tile iff each coordinate is in the tile's range. -/
theorem mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v11).slice (win2_3.rect t)).set ↔ _
  rw [View.set_slice_whole, Rect.mem_set_unit]
  exact Iff.rfl

/-- Every entry of the output array is written back by some point: row r by point r / 512. -/
theorem cover (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  have hN : grid2.N = 8 := N_2
  have ht : (i 0).val / 512 < grid2.N := by omega
  obtain ⟨-, -, -, -, -, -, e30, e31⟩ := idx_facts ⟨(i 0).val / 512, ht⟩
  have e30' : win2_3.index ⟨(i 0).val / 512, ht⟩ (0 : Fin 2) = (i 0).val / 512 := e30
  refine ⟨⟨(i 0).val / 512, ht⟩, flush2_3 _, ?_⟩
  rw [mem_blk]
  intro a
  match a with
  | ⟨0, _⟩ => show win2_3.index ⟨(i 0).val / 512, ht⟩ (0 : Fin 2) * 512 ≤ (i 0).val ∧ (i 0).val < win2_3.index ⟨(i 0).val / 512, ht⟩ (0 : Fin 2) * 512 + 512; omega
  | ⟨1, _⟩ => show win2_3.index ⟨(i 0).val / 512, ht⟩ (1 : Fin 2) * 1024 ≤ (i 1).val ∧ (i 1).val < win2_3.index ⟨(i 0).val / 512, ht⟩ (1 : Fin 2) * 1024 + 1024; omega

/-- What launch 2 leaves in its output array, for any contents `V` it is entered with. -/
theorem value (V : (c : Dev nD) → (b : Ref sig .tc) → Buf (Elt Ideal) ((c : Thread nD τ).loc b)) (c : Dev nD) :
    (dat2 (F := Ideal) V c).arrAt 3 cfg2.N = Cert.Attn.linRows (V c main_v2) (V c main_arg6) (V c main_v10) :=
  (dat2 (F := Ideal) V c).arrAt_eq_of_cover 3 (Cert.Attn.linRows (V c main_v2) (V c main_arg6) (V c main_v10))
    (fun t _ => flushed_eq V c t) cover

end Cert.KernelIdeal.Lin2

end
-- ==== Proof.KLin4.lean ====
/-
  The output layer's launch, read as a value: on a grid of 8 row tiles of 512 rows, each
  point loads its tile of `x`, the whole weight matrix and the bias row, and stores
  `x_tile · wᵀ + bias` (the product onto a zero accumulator, every format change the
  identity at the extended reals). The 8 tiles fill the 4096 rows, so the array the launch
  leaves is `x · wᵀ + bias`, entry by entry.
-/
import proofs.«421860_j29489245454730_3_alg».proof.Proof.Gen.KernelIdeal.Frame
import proofs.«421860_j29489245454730_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Lin4

open Idealize.ShloMosaic Idealize.ShloMosaic.TcCoe Idealize.SL.Sem Idealize.ShloMosaic.ValueIdx
open Cert.KernelIdeal Cert.KernelIdeal.Gen

/-! ## The tile product at an index -/

theorem lhs_D_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_D_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_D_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_D_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The tile product onto the zero accumulator at (p, q): row p of the left block against row q of
    the right block, summed over the 1024 columns. -/
theorem matmul_at (a : FVec Ideal S512x1024 .bf16) (b : FVec Ideal S1024x1024 .bf16) (p : Fin 512) (q : Fin 1024) :
    FloatOps.matmul dot_S512x1024_S1024x1024_S512x1024_1_1_0_0_n_n none a b (constant S512x1024 .f32 0x00000000#32) (ix2 p q)
      = ∑ k : Fin 1024, a (ix2 p k) * b (ix2 q k) := by
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun ax => Fin.ext (by
    match ax with
    | ⟨0, _⟩ => exact lhs_D_0 _ _
    | ⟨1, _⟩ => exact (lhs_D_1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun ax => Fin.ext (by
    match ax with
    | ⟨0, _⟩ => exact rhs_D_0 _ _
    | ⟨1, _⟩ => exact (rhs_D_1 _ _).trans hk)
  rw [el, er]

/-- What one grid point stores, at (p, q) of its tile: the product row plus the bias entry. -/
theorem pay_at (x0 : Vec Ideal S512x1024 .f32) (x1 : Vec Ideal S1024x1024 .f32) (x2 : Vec Ideal S1x1024 .f32) (p : Fin 512) (q : Fin 1024) :
    k4_pay1 (F := Ideal) x0 x1 x2 (ix2 p q) = (∑ k : Fin 1024, x0 (ix2 p k) * x1 (ix2 q k)) + x2 (ix2 (0 : Fin 1) q) := by
  unfold k4_pay1
  rw [shapeCast_self, shapeCast_self]
  show FloatOps.matmul (F := Ideal) dot_S512x1024_S1024x1024_S512x1024_1_1_0_0_n_n none (x0 : FVec Ideal S512x1024 .bf16) (x1 : FVec Ideal S1024x1024 .bf16) (constant (F := Ideal) S512x1024 .f32 0x00000000#32) (ix2 p q)
      + broadcastTo S512x1024 x2 broadcasts_S1x1024_S512x1024 (ix2 p q) = _
  rw [matmul_at x0 x1 p q, broadcastTo_1b_ab_apply x2 broadcasts_S1x1024_S512x1024 p q]

/-- The same entry against whole arrays: when row p of the left block is row `i 0` of `X`, row q of
    the right block is row `i 1` of `W`, and the bias block's entry q is `B`'s entry `i 1`, the stored
    entry is `X · Wᵀ + B` at `i`. -/
theorem tile_at (X : Cert.Attn.Sr.Idx → EReal) (W : Cert.Attn.Sw.Idx → EReal) (B : Cert.Attn.Sb2.Idx → EReal)
    (x0 : Vec Ideal S512x1024 .f32) (x1 : Vec Ideal S1024x1024 .f32) (x2 : Vec Ideal S1x1024 .f32)
    (p : Fin 512) (q : Fin 1024) (i : Cert.Attn.Sr.Idx)
    (h0 : ∀ k : Fin 1024, x0 (ix2 p k) = X (ix2 (i 0) k)) (h1 : ∀ k : Fin 1024, x1 (ix2 q k) = W (ix2 (i 1) k))
    (h2 : x2 (ix2 (0 : Fin 1) q) = B (ix2 (0 : Fin 1) (i 1))) :
    k4_pay1 (F := Ideal) x0 x1 x2 (ix2 p q) = Cert.Attn.linRows X W B i := by
  rw [pay_at, h2]
  exact congrArg (· + B (ix2 (0 : Fin 1) (i 1))) (Finset.sum_congr rfl fun k _ => by rw [h0 k, h1 k])

/-! ## From the tiles to the array -/

theorem off_zero : (![0, 0] : Fin 2 → Nat) = fun _ => 0 := funext fun a => by fin_cases a <;> rfl

/-- The index maps, decided over the 8 grid points: the row tile of `x` moves with the output's row
    tile, which is the point's own number; the weights and the bias are one block each; there is one
    column tile. -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- What point `t` writes back is tile `t` of `x · wᵀ + bias` of the arrays as the launch finds them. -/
theorem flushed_eq (V : (c : Dev nD) → (b : Ref sig .tc) → Buf (Elt Ideal) ((c : Thread nD τ).loc b)) (c : Dev nD) (t : Fin cfg4.N) :
    (dat4 (F := Ideal) V c).flushed 3 t
      = ((cfg4.win 3).blk t).view.read (Elt Ideal) (Cert.Attn.linRows (V c main_v14) (V c main_arg7) (V c main_v15)) := by
  show (cfg4.win 3).cut (grid4.coords t) ((dat4 V c).after 3 t) = _
  rw [after4_3]
  unfold out4_3
  rw [View.canon_unit_zero off_zero]
  simp only [View.ld_unit_zero (S := S512x1024) off_zero, View.ld_unit_zero (S := S1024x1024) off_zero, View.ld_unit_zero (S := S1x1024) off_zero]
  obtain ⟨e00, e01, e10, e11, e20, e21, e30, e31⟩ := idx_facts t
  funext j
  obtain ⟨p, q, rfl⟩ : ∃ (p : Fin 512) (q : Fin 1024), j = ix2 p q := ⟨j 0, j 1, eq_ix2 j⟩
  refine tile_at (V c main_v14) (V c main_arg7) (V c main_v15) (iblk4 V c 0 t) (iblk4 V c 1 t) (iblk4 V c 2 t) p q
    (((cfg4.win 3).blk t).view.emb (ix2 p q)) (fun k => ?_) (fun k => ?_) ?_
  · show V c main_v14 (((cfg4.win 0).blk t).view.emb (ix2 p k)) = V c main_v14 (ix2 ((((cfg4.win 3).blk t).view.emb (ix2 p q)) 0) k)
    refine congrArg (V c main_v14) (funext fun a => Fin.ext ?_)
    match a with
    | ⟨0, _⟩ => show win4_0.index t (0 : Fin 2) * 512 + 1 * p.val = win4_3.index t (0 : Fin 2) * 512 + 1 * p.val; omega
    | ⟨1, _⟩ => show win4_0.index t (1 : Fin 2) * 1024 + 1 * k.val = k.val; omega
  · show V c main_arg7 (((cfg4.win 1).blk t).view.emb (ix2 q k)) = V c main_arg7 (ix2 ((((cfg4.win 3).blk t).view.emb (ix2 p q)) 1) k)
    refine congrArg (V c main_arg7) (funext fun a => Fin.ext ?_)
    match a with
    | ⟨0, _⟩ => show win4_1.index t (0 : Fin 2) * 1024 + 1 * q.val = win4_3.index t (1 : Fin 2) * 1024 + 1 * q.val; omega
    | ⟨1, _⟩ => show win4_1.index t (1 : Fin 2) * 1024 + 1 * k.val = k.val; omega
  · show V c main_v15 (((cfg4.win 2).blk t).view.emb (ix2 (0 : Fin 1) q)) = V c main_v15 (ix2 (0 : Fin 1) ((((cfg4.win 3).blk t).view.emb (ix2 p q)) 1))
    refine congrArg (V c main_v15) (funext fun a => Fin.ext ?_)
    match a with
    | ⟨0, _⟩ => show win4_2.index t (0 : Fin 2) * 1 + 1 * 0 = 0; omega
    | ⟨1, _⟩ => show win4_2.index t (1 : Fin 2) * 1024 + 1 * q.val = win4_3.index t (1 : Fin 2) * 1024 + 1 * q.val; omega

/-- An index of the output array is in point `t`'s tile iff each coordinate is in the tile's range. -/
theorem mem_blk (t : Fin cfg4.N) (i : S4096x1024.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v16).slice (win4_3.rect t)).set ↔ _
  rw [View.set_slice_whole, Rect.mem_set_unit]
  exact Iff.rfl

/-- Every entry of the output array is written back by some point: row r by point r / 512. -/
theorem cover (i : S4096x1024.Idx) : ∃ t : Fin cfg4.N, (cfg4.win 3).flush t = true ∧ i ∈ ((cfg4.win 3).blk t).view.set := by
  have hi0 : (i 0).val < 4096 := (i 0).isLt
  have hi1 : (i 1).val < 1024 := (i 1).isLt
  have hN : grid4.N = 8 := N_4
  have ht : (i 0).val / 512 < grid4.N := by omega
  obtain ⟨-, -, -, -, -, -, e30, e31⟩ := idx_facts ⟨(i 0).val / 512, ht⟩
  have e30' : win4_3.index ⟨(i 0).val / 512, ht⟩ (0 : Fin 2) = (i 0).val / 512 := e30
  refine ⟨⟨(i 0).val / 512, ht⟩, flush4_3 _, ?_⟩
  rw [mem_blk]
  intro a
  match a with
  | ⟨0, _⟩ => show win4_3.index ⟨(i 0).val / 512, ht⟩ (0 : Fin 2) * 512 ≤ (i 0).val ∧ (i 0).val < win4_3.index ⟨(i 0).val / 512, ht⟩ (0 : Fin 2) * 512 + 512; omega
  | ⟨1, _⟩ => show win4_3.index ⟨(i 0).val / 512, ht⟩ (1 : Fin 2) * 1024 ≤ (i 1).val ∧ (i 1).val < win4_3.index ⟨(i 0).val / 512, ht⟩ (1 : Fin 2) * 1024 + 1024; omega

/-- What launch 4 leaves in its output array, for any contents `V` it is entered with. -/
theorem value (V : (c : Dev nD) → (b : Ref sig .tc) → Buf (Elt Ideal) ((c : Thread nD τ).loc b)) (c : Dev nD) :
    (dat4 (F := Ideal) V c).arrAt 3 cfg4.N = Cert.Attn.linRows (V c main_v14) (V c main_arg7) (V c main_v15) :=
  (dat4 (F := Ideal) V c).arrAt_eq_of_cover 3 (Cert.Attn.linRows (V c main_v14) (V c main_arg7) (V c main_v15))
    (fun t _ => flushed_eq V c t) cover

end Cert.KernelIdeal.Lin4

end
-- ==== Proof.KAttnDefs.lean ====
/-
  What one trip of the attention kernel's loop over head pairs stores, as one term of what it
  loads: the query slab, the key and value slabs of the pair, and the mask block.
-/
import proofs.«421860_j29489245454730_3_alg».proof.Proof.Gen.KernelIdeal.Skeleton
import Idealize.ShloMosaic.PureOps.Ideal

noncomputable section

namespace Cert.KernelIdeal.AttnPay

open Idealize.ShloMosaic
open Cert.KernelIdeal Cert.KernelIdeal.Gen

/-- Lane `64·half + j` of a head pair's 128 lanes. -/
def lane (half : Fin 2) (j : Fin 64) : Fin 128 := ⟨half.val * 64 + j.val, by omega⟩

/-- What one trip stores, from what it loads. -/
def tripPay (v0 : Vec Ideal S1x256x2048 .i32) (x8 : Vec Ideal S1x256x128 .bf16) (x11 x14 : Vec Ideal S1x2048x128 .bf16) :
    FVec Ideal S1x256x128 .f32 :=
  k3_pay2 (k3_pay6 (k3_pay1 (F := Ideal) v0) x8 x11 x14) (k3_pay7 x14) (k3_pay8 (k3_pay1 (F := Ideal) v0) x8 x11)

end Cert.KernelIdeal.AttnPay

end
-- ==== Proof.KAttnTrip.lean ====
/-
  The attention launch at one grid point, read as a value. The body loops over the 8 head
  pairs; trip k loads lanes [128k, 128k+128) of the query block and of the key and value
  blocks, and stores the pair's attention slab into the same lanes of the output block. So
  the output block is covered by the 8 stored slabs, and at row r and column e it holds the
  attention of head e / 64 at coordinate e % 64: logits from the head's 64 lanes of the query
  row and key rows, the mask row r, and column e of the values.
-/
import proofs.«421860_j29489245454730_3_alg».proof.Proof.Gen.KernelIdeal.Frame
import proofs.«421860_j29489245454730_3_alg».proof.Proof.Spec
import proofs.«421860_j29489245454730_3_alg».proof.Proof.KAttnDefs
import Idealize.ShloMosaic.Lib.Pipeline.Value
import Idealize.ShloMosaic.Lib.ValueIdx
import Idealize.ShloMosaic.Lib.Tactic

set_option maxRecDepth 16384

noncomputable section

open scoped BigOperators

namespace Cert.KernelIdeal.AttnTrip

open Idealize.ShloMosaic.Tactic Idealize.ShloMosaic Idealize.ShloMosaic.TcCoe Idealize.SL.Sem Idealize.ShloMosaic.ValueIdx
open Cert.KernelIdeal Cert.KernelIdeal.Gen Cert.KernelIdeal.AttnPay

/-- The output block of one grid point as a function of its four input blocks: at (0, r, e) the
    attention of head `e / 64`, coordinate `e % 64`, of query row `r`. -/
def blockFn (x0 : Vec Ideal S1x256x1024 .bf16) (x1 x2 : Vec Ideal S1x2048x1024 .bf16) (x3 : Vec Ideal S1x256x2048 .i32) :
    S1x256x1024.Idx → EReal := fun y =>
  Cert.Attn.attnKL
    (Cert.Attn.scoreL (fun jj => x0 (ix3 (0 : Fin 1) (y 1) (Cert.Attn.headCol (Cert.Attn.headOf (y 2)) jj)))
      (fun k jj => x1 (ix3 (0 : Fin 1) k (Cert.Attn.headCol (Cert.Attn.headOf (y 2)) jj)))
      (fun k => x3 (ix3 (0 : Fin 1) (y 1) k)))
    (fun k => x2 (ix3 (0 : Fin 1) k (y 2)))

/-- The slabs trip `k` loads, from the contents the staging buffers hold. -/
abbrev slabQ (arg2 : Memref sig .tc .vmem S1x256x1024 .bf16) (X : BufTy.Contents (Elt Ideal) arg2.view.ty) (k : Fin k3_t1_loop.trips) :=
  View.readAt (Elt Ideal) arg2.view (Rect.unit (s := S1x256x1024) (k3_off1 k) S1x256x128.size (k3_off1_inb k)).toLoadRect X
abbrev slabKV (arg3 : Memref sig .tc .vmem S1x2048x1024 .bf16) (X : BufTy.Contents (Elt Ideal) arg3.view.ty) (k : Fin k3_t1_loop.trips) :=
  View.readAt (Elt Ideal) arg3.view (Rect.unit (s := S1x2048x1024) (k3_off2 k) S1x2048x128.size (k3_off2_inb k)).toLoadRect X

/-- Trip `k` writes ONE piece: the pair's slab, at lanes [128k, 128k + 128). -/
theorem tripL_eq (𝒱 : Variants) (c : Dev nD) (bd : Option 𝒱.V) (i : grid3.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .i32) (harg5 : arg5.IsWhole) (arg6 : Memref sig .tc .vmem S1x256x1024 .f32) (harg6 : arg6.IsWhole)
    (v0 : Vec Ideal S1x256x2048 .i32) (X_arg2 : BufTy.Contents (Elt Ideal) arg2.view.ty) (X_arg3 : BufTy.Contents (Elt Ideal) arg3.view.ty) (X_arg4 : BufTy.Contents (Elt Ideal) arg4.view.ty) (k : Fin k3_t1_loop.trips) :
    tripL_k3_t1 (F := Ideal) 𝒱 c bd i arg2 harg2 arg3 harg3 arg4 harg4 arg5 harg5 arg6 harg6 v0 X_arg2 X_arg3 X_arg4 k
      = [⟨Rect.unit (s := S1x256x1024) (k3_off1 k) S1x256x128.size (k3_off1_inb k),
          tripPay v0 (slabQ arg2 X_arg2 k) (slabKV arg3 X_arg3 k) (slabKV arg4 X_arg4 k)⟩] := by
  unfold tripL_k3_t1 trip_k3_t1
  dsimp only
  sl_unfold_words
  rfl

/-- The arithmetic of one trip (proved where the payload is read at an index): the stored slab at row `r`, lane
    `64·half + j`, is the kernel-arrangement attention of the head's lanes of the loaded slabs. -/
def PayFact : Prop :=
  ∀ (v0 : Vec Ideal S1x256x2048 .i32) (x8 : Vec Ideal S1x256x128 .bf16) (x11 x14 : Vec Ideal S1x2048x128 .bf16)
    (r : Fin 256) (half : Fin 2) (j : Fin 64),
    tripPay v0 x8 x11 x14 (ix3 (0 : Fin 1) r (lane half j))
      = Cert.Attn.attnKL
          (Cert.Attn.scoreL (fun jj => x8 (ix3 (0 : Fin 1) r (lane half jj))) (fun k jj => x11 (ix3 (0 : Fin 1) k (lane half jj)))
            (fun k => v0 (ix3 (0 : Fin 1) r k)))
          (fun k => x14 (ix3 (0 : Fin 1) k (lane half j)))

/-- Fewer than 8 trips. -/
theorem trip_lt (k : Fin k3_t1_loop.trips) : k.val < 8 := Nat.lt_of_lt_of_le k.isLt k3_t1_abs.2.1

/-- Column `128k + l` of the block. -/
def colOf (k : Fin k3_t1_loop.trips) (l : Fin 128) : Fin 1024 := ⟨128 * k.val + l.val, by have := trip_lt k; omega⟩

/-- Where trip `k`'s rectangle places local index (0, r, l): row r, column 128k + l. -/
theorem emb_trip (k : Fin k3_t1_loop.trips) (r : Fin 256) (l : Fin 128) :
    (Rect.unit (s := S1x256x1024) (k3_off1 k) S1x256x128.size (k3_off1_inb k)).emb (ix3 (0 : Fin 1) r l)
      = ix3 (0 : Fin 1) r (colOf k l) := by
  funext a; apply Fin.ext
  have e := k3_off1_eq k
  match a with
  | ⟨0, _⟩ => show (k3_off1 k) 0 + 1 * 0 = 0; rw [e]; rfl
  | ⟨1, _⟩ => show (k3_off1 k) 1 + 1 * r.val = r.val; rw [e]; show 0 + 1 * r.val = r.val; omega
  | ⟨2, _⟩ => show (k3_off1 k) 2 + 1 * l.val = 128 * k.val + l.val; rw [e]; show 128 * k.val + 1 * l.val = _; omega

/-- The same for the key / value slabs' rectangle. -/
theorem emb_trip2 (k : Fin k3_t1_loop.trips) (r : Fin 2048) (l : Fin 128) :
    (Rect.unit (s := S1x2048x1024) (k3_off2 k) S1x2048x128.size (k3_off2_inb k)).emb (ix3 (0 : Fin 1) r l)
      = ix3 (0 : Fin 1) r (colOf k l) := by
  funext a; apply Fin.ext
  have e := k3_off2_eq k
  match a with
  | ⟨0, _⟩ => show (k3_off2 k) 0 + 1 * 0 = 0; rw [e]; rfl
  | ⟨1, _⟩ => show (k3_off2 k) 1 + 1 * r.val = r.val; rw [e]; show 0 + 1 * r.val = r.val; omega
  | ⟨2, _⟩ => show (k3_off2 k) 2 + 1 * l.val = 128 * k.val + l.val; rw [e]; show 128 * k.val + 1 * l.val = _; omega

/-- The query slab of trip `k` is lanes [128k, 128k+128) of the query block. -/
theorem slabQ_apply (arg2 : Memref sig .tc .vmem S1x256x1024 .bf16) (harg2 : arg2.IsWhole) (x0 : Vec Ideal S1x256x1024 .bf16)
    (k : Fin k3_t1_loop.trips) (r : Fin 256) (l : Fin 128) :
    slabQ arg2 (harg2.unread x0) k (ix3 (0 : Fin 1) r l) = x0 (ix3 (0 : Fin 1) r (colOf k l)) := by
  unfold slabQ
  rw [View.readAt_eq_ld, harg2.read_unread]
  exact congrArg x0 (emb_trip k r l)

/-- The key (value) slab of trip `k` is the same lanes of the key (value) block. -/
theorem slabKV_apply (arg3 : Memref sig .tc .vmem S1x2048x1024 .bf16) (harg3 : arg3.IsWhole) (x1 : Vec Ideal S1x2048x1024 .bf16)
    (k : Fin k3_t1_loop.trips) (r : Fin 2048) (l : Fin 128) :
    slabKV arg3 (harg3.unread x1) k (ix3 (0 : Fin 1) r l) = x1 (ix3 (0 : Fin 1) r (colOf k l)) := by
  unfold slabKV
  rw [View.readAt_eq_ld, harg3.read_unread]
  exact congrArg x1 (emb_trip2 k r l)

/-- The mask block, loaded whole. -/
theorem maskLoad_eq (arg5 : Memref sig .tc .vmem S1x256x2048 .i32) (harg5 : arg5.IsWhole) (x3 : Vec Ideal S1x256x2048 .i32) :
    View.readAt (Elt Ideal) arg5.view (Rect.unit (s := S1x256x2048) ![0, 0, 0] S1x256x2048.size inb_S1x256x2048_S1x256x2048_0_0_0).toLoadRect (harg5.unread x3)
      = x3 := by
  rw [View.readAt_eq_ld, harg5.read_unread]
  exact View.ld_unit_zero (S := S1x256x2048) (funext fun a => by fin_cases a <;> rfl) _ x3

/-- Column 128k + (64·half + j) belongs to head 2k + half, at coordinate j. -/
theorem headCol_colOf (k : Fin k3_t1_loop.trips) (half : Fin 2) (j jj : Fin 64) :
    Cert.Attn.headCol (Cert.Attn.headOf (colOf k (lane half j))) jj = colOf k (lane half jj) := by
  apply Fin.ext
  have hk := trip_lt k
  have hh := half.isLt; have hj := j.isLt; have hjj := jj.isLt
  simp only [Cert.Attn.headCol, Cert.Attn.headOf, colOf, lane]
  omega

/-- TRIP `k`'S PIECE AGREES WITH THE BLOCK FUNCTION on its rectangle. -/
theorem trip_piece (hpay : PayFact) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole)
    (x0 : Vec Ideal S1x256x1024 .bf16) (x1 x2 : Vec Ideal S1x2048x1024 .bf16) (x3 : Vec Ideal S1x256x2048 .i32)
    (k : Fin k3_t1_loop.trips) (x : S1x256x128.Idx) :
    tripPay x3 (slabQ arg2 (harg2.unread x0) k) (slabKV arg3 (harg3.unread x1) k) (slabKV arg4 (harg4.unread x2) k) x
      = blockFn x0 x1 x2 x3 ((Rect.unit (s := S1x256x1024) (k3_off1 k) S1x256x128.size (k3_off1_inb k)).emb x) := by
  obtain ⟨r, l, rfl⟩ : ∃ (r : Fin 256) (l : Fin 128), x = ix3 (0 : Fin 1) r l :=
    ⟨x 1, x 2, funext fun a => by
      match a with
      | ⟨0, _⟩ => exact Fin.ext (by have h : (x 0).val < 1 := (x 0).isLt; show (x 0).val = 0; omega)
      | ⟨1, _⟩ => rfl
      | ⟨2, _⟩ => rfl⟩
  obtain ⟨half, j, rfl⟩ : ∃ (half : Fin 2) (j : Fin 64), l = lane half j :=
    ⟨⟨l.val / 64, by have := l.isLt; omega⟩, ⟨l.val % 64, Nat.mod_lt _ (by norm_num)⟩, Fin.ext (by simp only [lane]; omega)⟩
  rw [hpay, emb_trip]
  unfold blockFn
  have hq : (fun jj => slabQ arg2 (harg2.unread x0) k (ix3 (0 : Fin 1) r (lane half jj)))
      = fun jj => x0 (ix3 (0 : Fin 1) r (Cert.Attn.headCol (Cert.Attn.headOf (colOf k (lane half j))) jj)) :=
    funext fun jj => by rw [slabQ_apply, headCol_colOf]
  have hk : (fun kk jj => slabKV arg3 (harg3.unread x1) k (ix3 (0 : Fin 1) kk (lane half jj)))
      = fun kk jj => x1 (ix3 (0 : Fin 1) kk (Cert.Attn.headCol (Cert.Attn.headOf (colOf k (lane half j))) jj)) :=
    funext fun kk => funext fun jj => by rw [slabKV_apply, headCol_colOf]
  have hv : (fun kk => slabKV arg4 (harg4.unread x2) k (ix3 (0 : Fin 1) kk (lane half j)))
      = fun kk => x2 (ix3 (0 : Fin 1) kk (colOf k (lane half j))) :=
    funext fun kk => by rw [slabKV_apply]
  rw [hq, hk, hv]

/-- EVERY piece the trips before `n` have written agrees with the block function on its rectangle: by induction
    on the trips, each adding its one piece in front. -/
theorem pb_pieces (hpay : PayFact) (c : Dev nD) (i : grid3.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .i32) (harg5 : arg5.IsWhole) (arg6 : Memref sig .tc .vmem S1x256x1024 .f32) (harg6 : arg6.IsWhole)
    (x0 : Vec Ideal S1x256x1024 .bf16) (x1 x2 : Vec Ideal S1x2048x1024 .bf16) (x3 : Vec Ideal S1x256x2048 .i32) :
    ∀ n : ℕ, n ≤ k3_t1_loop.trips →
      ∀ p ∈ pb_k3_t1 (F := Ideal) Variants.none c none i arg2 harg2 arg3 harg3 arg4 harg4 arg5 harg5 arg6 harg6 x3 (harg2.unread x0) (harg3.unread x1) (harg4.unread x2) n,
        ∀ x : p.1.shape.Idx, p.2 x = blockFn x0 x1 x2 x3 (p.1.emb x) := by
  intro n
  induction n with
  | zero =>
    intro _ p hp
    rw [pb_k3_t1.eq_1] at hp
    exact absurd hp List.not_mem_nil
  | succ n ih =>
    intro hn p hp x
    have hlt : n < k3_t1_loop.trips := hn
    have e : pb_k3_t1 (F := Ideal) Variants.none c none i arg2 harg2 arg3 harg3 arg4 harg4 arg5 harg5 arg6 harg6 x3 (harg2.unread x0) (harg3.unread x1) (harg4.unread x2) (n + 1)
        = tripL_k3_t1 (F := Ideal) Variants.none c none i arg2 harg2 arg3 harg3 arg4 harg4 arg5 harg5 arg6 harg6 x3 (harg2.unread x0) (harg3.unread x1) (harg4.unread x2) ⟨n, hlt⟩
          ++ pb_k3_t1 (F := Ideal) Variants.none c none i arg2 harg2 arg3 harg3 arg4 harg4 arg5 harg5 arg6 harg6 x3 (harg2.unread x0) (harg3.unread x1) (harg4.unread x2) n :=
      pb_k3_t1_succ (F := Ideal) Variants.none c none i arg2 harg2 arg3 harg3 arg4 harg4 arg5 harg5 arg6 harg6 x3 (harg2.unread x0) (harg3.unread x1) (harg4.unread x2) ⟨n, hlt⟩
    rw [e, tripL_eq] at hp
    rcases List.mem_append.mp hp with h1 | h2
    · rw [List.mem_singleton] at h1
      subst h1
      exact trip_piece hpay arg2 harg2 arg3 harg3 arg4 harg4 x0 x1 x2 x3 ⟨n, hlt⟩ x
    · exact ih (Nat.le_of_lt hlt) p h2 x

/-- THE OUTPUT BLOCK after the body at a grid point is the block function of the point's input blocks. -/
theorem out_eq (hpay : PayFact) (c : Dev nD) (i : grid3.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x2048 .i32) (harg5 : arg5.IsWhole) (arg6 : Memref sig .tc .vmem S1x256x1024 .f32) (harg6 : arg6.IsWhole)
    (x0 : Vec Ideal S1x256x1024 .bf16) (x1 x2 : Vec Ideal S1x2048x1024 .bf16) (x3 : Vec Ideal S1x256x2048 .i32) :
    out3_A_4 (F := Ideal) c i arg2 harg2 arg3 harg3 arg4 harg4 arg5 harg5 arg6 harg6 x0 x1 x2 x3 = blockFn x0 x1 x2 x3 := by
  unfold out3_A_4
  rw [View.read_writes_junk_eq_canon]
  funext y
  have hL : (kernelRun3_A (F := Ideal) c i arg2 harg2 arg3 harg3 arg4 harg4 arg5 harg5 arg6 harg6 x0 x1 x2 x3).1
      = pb_k3_t1 (F := Ideal) Variants.none c none i arg2 harg2 arg3 harg3 arg4 harg4 arg5 harg5 arg6 harg6 x3 (harg2.unread x0) (harg3.unread x1) (harg4.unread x2) k3_t1_loop.trips := by
    unfold kernelRun3_A
    dsimp only
    rw [maskLoad_eq]
  refine View.canon_apply_of_pieces (blockFn x0 x1 x2 x3) _ ?_ y (cover3_A_4 c i arg2 harg2 arg3 harg3 arg4 harg4 arg5 harg5 arg6 harg6 x0 x1 x2 x3 y)
  rw [hL]
  exact pb_pieces hpay c i arg2 harg2 arg3 harg3 arg4 harg4 arg5 harg5 arg6 harg6 x0 x1 x2 x3 k3_t1_loop.trips le_rfl

end Cert.KernelIdeal.AttnTrip

end
-- ==== Proof.KAttnPay.lean ====
/-
  One trip of the attention kernel's loop over head pairs, as arithmetic: from the query
  slab [256, 128], the key and value slabs [2048, 128] of the pair and the mask block
  [256, 2048], the stored slab [256, 128] holds, at row r and lane 64·half + j, the attention
  of head `half` of the pair in the kernel's arrangement: logits (q · k)/8 over the head's 64
  lanes, masked; weights e^{logit − row max}; (∑ₖ weightₖ · vₖ) / ∑ₖ weightₖ.
-/
import proofs.«421860_j29489245454730_3_alg».proof.Proof.Gen.KernelIdeal.Skeleton
import proofs.«421860_j29489245454730_3_alg».proof.Proof.KAttnDefs
import proofs.«421860_j29489245454730_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.AttnPay

open Idealize.ShloMosaic Idealize.ShloMosaic.ValueIdx
open Cert.KernelIdeal Cert.KernelIdeal.Gen

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two contractions read as sums over one coordinate -/

theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The product of a query block `[256, 64]` with a key block `[2048, 64]` along the 64 lanes, onto a zero
    accumulator: entry `(r, k)` is `∑ j, q[r, j] · key[k, j]`. -/
theorem matmul_qk_apply (q : FVec Ideal S256x64 .bf16) (kk : FVec Ideal S2048x64 .bf16) (r : Fin 256) (k : Fin 2048) :
    matmul dot_S256x64_S2048x64_S256x2048_1_1_0_0_n_n none q kk (constant (F := Ideal) S256x2048 .f32 0x00000000#32) (ix2 r k)
      = ∑ j : Fin 64, q (ix2 r j) * kk (ix2 k j) := by
  refine (Ideal.matmul_constant_zero_apply dot_S256x64_S2048x64_S256x2048_1_1_0_0_n_n none q kk (ix2 r k)).trans ?_
  rw [← Equiv.sum_comp (ValueIdx.contrEquiv1 dot_S256x64_S2048x64_S256x2048_1_1_0_0_n_n 64 rfl rfl).symm]
  refine Finset.sum_congr rfl fun j _ => ?_
  have hk := ValueIdx.contrEquiv1_symm_val dot_S256x64_S2048x64_S256x2048_1_1_0_0_n_n 64 rfl rfl j
  have el : dot_S256x64_S2048x64_S256x2048_1_1_0_0_n_n.lhsIdx (ix2 r k) ((ValueIdx.contrEquiv1 dot_S256x64_S2048x64_S256x2048_1_1_0_0_n_n 64 rfl rfl).symm j) = ix2 r j := funext fun a => Fin.ext (by
    match a with
    | ⟨0, _⟩ => exact lhs_qk_0 _ _
    | ⟨1, _⟩ => exact (lhs_qk_1 _ _).trans hk)
  have er : dot_S256x64_S2048x64_S256x2048_1_1_0_0_n_n.rhsIdx (ix2 r k) ((ValueIdx.contrEquiv1 dot_S256x64_S2048x64_S256x2048_1_1_0_0_n_n 64 rfl rfl).symm j) = ix2 k j := funext fun a => Fin.ext (by
    match a with
    | ⟨0, _⟩ => exact rhs_qk_0 _ _
    | ⟨1, _⟩ => exact (rhs_qk_1 _ _).trans hk)
  rw [el, er]

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The product of a weight block `[256, 2048]` with a value block `[2048, 64]` along the 2048 keys, onto a zero
    accumulator: entry `(r, j)` is `∑ k, p[r, k] · v[k, j]`. -/
theorem matmul_pv_apply (p : FVec Ideal S256x2048 .bf16) (v : FVec Ideal S2048x64 .bf16) (r : Fin 256) (j : Fin 64) :
    matmul dot_S256x2048_S2048x64_S256x64_1_0_0_1_n_n none p v (constant (F := Ideal) S256x64 .f32 0x00000000#32) (ix2 r j)
      = ∑ k : Fin 2048, p (ix2 r k) * v (ix2 k j) := by
  refine (Ideal.matmul_constant_zero_apply dot_S256x2048_S2048x64_S256x64_1_0_0_1_n_n none p v (ix2 r j)).trans ?_
  rw [← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 r j) ((ValueIdx.contrEquiv1 dot_S256x2048_S2048x64_S256x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S256x2048_S2048x64_S256x64_1_0_0_1_n_n.rhsIdx (ix2 r j) ((ValueIdx.contrEquiv1 dot_S256x2048_S2048x64_S256x64_1_0_0_1_n_n 2048 rfl rfl).symm k) = ix2 k j := funext fun a => Fin.ext (by
    match a with
    | ⟨0, _⟩ => exact (rhs_pv_0 _ _).trans hk
    | ⟨1, _⟩ => exact rhs_pv_1 _ _)
  rw [el, er]

/-! ## The two row reductions -/

theorem lift_row (r : Fin 256) (k : Fin 2048) :
    reduces_S256x2048_S256.lift (ix1 r) k = ix2 r k :=
  funext fun a => Fin.ext (by
    match a with
    | ⟨0, _⟩ => rfl
    | ⟨1, _⟩ => rfl)

/-- The f32 word `0xFF800000` is `-∞`. -/
theorem ofBits_neg_inf : Ideal.ofBits .f32 0xFF800000#32 = (⊥ : EReal) := by
  simp [Ideal.ofBits, Ideal.ieee]

/-- A row's maximum from `-∞`: the fold of `max` over the row's 2048 entries. -/
theorem rowmax_apply (src : FVec Ideal S256x2048 .f32)
    (hφ : FKind.Formats .f32) (hacc : (0xFF800000#32 : BitVec 32) = 0xFF800000#32) (r : Fin 256) :
    multiReduction .maximumf [1] S256 src 0xFF800000#32 reduces_S256x2048_S256 hφ hacc (ix1 r)
      = (Finset.univ : Finset (Fin 2048)).fold max ⊥ (fun k => src (ix2 r k)) := by
  refine (Ideal.multiReduction_maximumf_single src 0xFF800000#32 reduces_S256x2048_S256 hφ hacc (ix1 r)).trans ?_
  show (Finset.univ : Finset (Fin 2048)).fold max (Ideal.ofBits .f32 0xFF800000#32) (src ∘ reduces_S256x2048_S256.lift (ix1 r)) = _
  rw [ofBits_neg_inf]
  exact congrArg (fun f : Fin 2048 → EReal => (Finset.univ : Finset (Fin 2048)).fold max ⊥ f) (funext fun k => congrArg src (lift_row r k))

/-- A row's sum from zero: the sum of the row's 2048 entries. -/
theorem rowsum_apply (src : FVec Ideal S256x2048 .f32)
    (hφ : FKind.Formats .f32) (hacc : (0x00000000#32 : BitVec 32) = 0x00000000#32) (r : Fin 256) :
    multiReduction .add [1] S256 src 0x00000000#32 reduces_S256x2048_S256 hφ hacc (ix1 r)
      = ∑ k : Fin 2048, src (ix2 r k) := by
  refine (Ideal.multiReduction_add_single src 0x00000000#32 reduces_S256x2048_S256 hφ hacc (ix1 r)).trans ?_
  exact Finset.sum_congr rfl fun k _ => congrArg src (lift_row r k)

/-- The f32 word `0x3E000000` is `1/8`. -/
theorem ofBits_eighth : Ideal.ofBits .f32 0x3E000000#32 = ((1 / 8 : ℝ) : EReal) := by
  simp [Ideal.ofBits, Ideal.ieee, -EReal.coe_mul]
  norm_num

/-! ## One head of the trip, as three stages -/

/-- The masked, scaled logits of a head, `[256, 2048]`: the products of query and key rows along the head's
    64 lanes, times 1/8, and the stand-in constant where the mask bit is off. -/
def logitsV (m : IVec S256x2048 1) (q : FVec Ideal S256x64 .bf16) (kk : FVec Ideal S2048x64 .bf16) : FVec Ideal S256x2048 .f32 :=
  select m
    (mulf (matmul dot_S256x64_S2048x64_S256x2048_1_1_0_0_n_n none q kk (constant (F := Ideal) S256x2048 .f32 0x00000000#32))
      (broadcast S256x2048 (Scalar.ofBits .f32 0x3E000000#32 : Ideal .f32)))
    (broadcast S256x2048 (Scalar.ofBits .f32 0xCE6E6B28#32 : Ideal .f32))

/-- Every row less its maximum. -/
def shiftedV (x : FVec Ideal S256x2048 .f32) : FVec Ideal S256x2048 .f32 :=
  subf x (broadcastTo S256x2048
    (shapeCast S256x1 (multiReduction .maximumf [1] S256 x 0xFF800000#32 reduces_S256x2048_S256 (.inl rfl) rfl) shapeCasts_S256_S256x1)
    broadcasts_S256x1_S256x2048)

/-- From the shifted logits `x` and a head's values `v`: the sum of `e^x · v` over the keys, divided by the sum of `e^x`. -/
def tailV (v : FVec Ideal S2048x64 .bf16) (x : FVec Ideal S256x2048 .f32) : FVec Ideal S256x64 .f32 :=
  divf (matmul dot_S256x2048_S2048x64_S256x64_1_0_0_1_n_n none (truncf .bf16 (exp x) bitsLt_bf16_f32) v (constant (F := Ideal) S256x64 .f32 0x00000000#32))
    (broadcastTo S256x64
      (shapeCast S256x1 (multiReduction .add [1] S256 (exp x) 0x00000000#32 reduces_S256x2048_S256 (.inl rfl) rfl) shapeCasts_S256_S256x1)
      broadcasts_S256x1_S256x64)

/-- The first head's quotient is the three stages on the low 64 lanes. -/
theorem pay6_eq (m : IVec S256x2048 1) (x8 : Vec Ideal S1x256x128 .bf16) (x11 x14 : Vec Ideal S1x2048x128 .bf16) :
    k3_pay6 m x8 x11 x14
      = tailV (extractStridedSlice S2048x64 ![0, 0] (k3_pay5 x14) slices_S2048x128_o0_0_S2048x64)
          (shiftedV (logitsV m (extractStridedSlice S256x64 ![0, 0] (k3_pay3 x8) slices_S256x128_o0_0_S256x64)
            (extractStridedSlice S2048x64 ![0, 0] (k3_pay4 x11) slices_S2048x128_o0_0_S2048x64))) := rfl

/-- The second head's shifted logits are the first two stages on the high 64 lanes. -/
theorem pay8_eq (m : IVec S256x2048 1) (x8 : Vec Ideal S1x256x128 .bf16) (x11 : Vec Ideal S1x2048x128 .bf16) :
    k3_pay8 m x8 x11
      = shiftedV (logitsV m (extractStridedSlice S256x64 ![0, 64] (k3_pay3 x8) slices_S256x128_o0_64_S256x64)
          (extractStridedSlice S2048x64 ![0, 64] (k3_pay4 x11) slices_S2048x128_o0_64_S2048x64)) := rfl

/-- The stored slab: the first head's quotient beside the second head's, as `[1, 256, 128]`. -/
theorem pay2_eq (v34 : FVec Ideal S256x64 .f32) (v37 : FVec Ideal S2048x64 .bf16) (v46 : FVec Ideal S256x2048 .f32) :
    k3_pay2 v34 v37 v46
      = shapeCast S1x256x128
          (concatenate S256x128 1 [⟨S256x64, v34⟩, ⟨S256x64, tailV v37 v46⟩] concatenates_S256x64_S256x64_S256x128_d1)
          shapeCasts_S256x128_S1x256x128 := rfl

/-! ## The stages at an index -/

/-- A select on "the word is not zero" is the `if` on "the word is zero", the branches swapped. -/
theorem select_ne_zero {β : Type} (x : BitVec 32) (a b : β) :
    Scalar.select (IntOp.cmpi .ne x 0#32) a b = if x = 0#32 then b else a := by
  by_cases hx : x = 0#32
  · subst hx; rw [if_pos rfl]; rfl
  · rw [if_neg hx]
    have hb : (x != 0#32) = true := bne_iff_ne.mpr hx
    have h1 : IntOp.cmpi .ne x 0#32 = 1#1 := by
      show BitVec.ofBool (x != 0#32) = 1#1
      rw [hb]; rfl
    rw [h1]; rfl

/-- The mask bit at `(r, k)`: the mask word at `(0, r, k)` is not zero. -/
theorem mask_apply (v0 : Vec Ideal S1x256x2048 .i32) (r : Fin 256) (k : Fin 2048) :
    k3_pay1 (F := Ideal) v0 (ix2 r k) = IntOp.cmpi .ne (v0 (ix3 (0 : Fin 1) r k)) 0#32 := by
  unfold k3_pay1
  exact congrArg (fun w : BitVec 32 => IntOp.cmpi .ne w 0#32) (shapeCast_1ab_ab_apply v0 shapeCasts_S1x256x2048_S256x2048 r k)

/-- The logits at `(r, k)` are the specification's masked, scaled logit of row `r` against key `k`. -/
theorem logitsV_apply (v0 : Vec Ideal S1x256x2048 .i32) (q : FVec Ideal S256x64 .bf16) (kk : FVec Ideal S2048x64 .bf16)
    (r : Fin 256) (k : Fin 2048) :
    logitsV (k3_pay1 (F := Ideal) v0) q kk (ix2 r k)
      = Cert.Attn.scoreL (fun j => q (ix2 r j)) (fun k j => kk (ix2 k j)) (fun k => v0 (ix3 (0 : Fin 1) r k)) k := by
  unfold logitsV Cert.Attn.scoreL
  show Scalar.select (k3_pay1 (F := Ideal) v0 (ix2 r k))
      (matmul dot_S256x64_S2048x64_S256x2048_1_1_0_0_n_n none q kk (constant (F := Ideal) S256x2048 .f32 0x00000000#32) (ix2 r k) * Ideal.ofBits .f32 0x3E000000#32)
      (Ideal.ofBits .f32 0xCE6E6B28#32) = _
  rw [mask_apply, matmul_qk_apply, ofBits_eighth, select_ne_zero]
  rfl

/-- A shifted row at `k`: the entry less the row's maximum. -/
theorem shiftedV_apply (x : FVec Ideal S256x2048 .f32) (r : Fin 256) (k : Fin 2048) :
    shiftedV x (ix2 r k) = x (ix2 r k) - Cert.Attn.rowMax (fun k => x (ix2 r k)) := by
  unfold shiftedV Cert.Attn.rowMax
  refine (subf_apply _ _ _).trans ?_
  exact congrArg (fun m : EReal => x (ix2 r k) - m)
    ((broadcastTo_a1_ab_apply _ broadcasts_S256x1_S256x2048 r k).trans
      ((shapeCast_a_a1_apply _ shapeCasts_S256_S256x1 r (0 : Fin 1)).trans (rowmax_apply x (.inl rfl) rfl r)))

/-- The quotient at `(r, j)`. -/
theorem tailV_apply (v : FVec Ideal S2048x64 .bf16) (x : FVec Ideal S256x2048 .f32) (r : Fin 256) (j : Fin 64) :
    tailV v x (ix2 r j)
      = Ideal.div (∑ k : Fin 2048, Ideal.exp (x (ix2 r k)) * v (ix2 k j)) (∑ k : Fin 2048, Ideal.exp (x (ix2 r k))) := by
  unfold tailV
  refine (divf_apply _ _ _).trans ?_
  refine congrArg₂ Ideal.div ?_ ?_
  · exact matmul_pv_apply (truncf .bf16 (exp x) bitsLt_bf16_f32) v r j
  · exact (broadcastTo_a1_ab_apply _ broadcasts_S256x1_S256x64 r j).trans
      ((shapeCast_a_a1_apply _ shapeCasts_S256_S256x1 r (0 : Fin 1)).trans (rowsum_apply (exp x) (.inl rfl) rfl r))

/-- One head, from its query, key and value blocks and the mask: the specification's attention of row `r`
    against value column `j`, in the kernel's arrangement. -/
theorem head_apply (v0 : Vec Ideal S1x256x2048 .i32) (q : FVec Ideal S256x64 .bf16) (kk v : FVec Ideal S2048x64 .bf16)
    (r : Fin 256) (j : Fin 64) :
    tailV v (shiftedV (logitsV (k3_pay1 (F := Ideal) v0) q kk)) (ix2 r j)
      = Cert.Attn.attnKL
          (Cert.Attn.scoreL (fun jj => q (ix2 r jj)) (fun k jj => kk (ix2 k jj)) (fun k => v0 (ix3 (0 : Fin 1) r k)))
          (fun k => v (ix2 k j)) := by
  have hl : (fun k : Fin 2048 => logitsV (k3_pay1 (F := Ideal) v0) q kk (ix2 r k))
      = Cert.Attn.scoreL (fun jj => q (ix2 r jj)) (fun k jj => kk (ix2 k jj)) (fun k => v0 (ix3 (0 : Fin 1) r k)) :=
    funext fun k => logitsV_apply v0 q kk r k
  have hs : ∀ k : Fin 2048, Ideal.exp (shiftedV (logitsV (k3_pay1 (F := Ideal) v0) q kk) (ix2 r k))
      = Cert.Attn.wgtL (Cert.Attn.scoreL (fun jj => q (ix2 r jj)) (fun k jj => kk (ix2 k jj)) (fun k => v0 (ix3 (0 : Fin 1) r k))) k :=
    fun k => by
      unfold Cert.Attn.wgtL
      rw [shiftedV_apply, hl, logitsV_apply]
  refine (tailV_apply _ _ r j).trans ?_
  unfold Cert.Attn.attnKL
  exact congrArg₂ Ideal.div (Finset.sum_congr rfl fun k _ => by rw [hs k]) (Finset.sum_congr rfl fun k _ => hs k)

/-! ## The slabs' lanes: a head's 64 lanes of the 128 loaded -/

/-- The query slab's low half at `(r, j)`. -/
theorem q_lo (x8 : Vec Ideal S1x256x128 .bf16) (r : Fin 256) (j : Fin 64) (half : Fin 2) (hh : half.val = 0) :
    extractStridedSlice S256x64 ![0, 0] (k3_pay3 x8) slices_S256x128_o0_0_S256x64 (ix2 r j)
      = x8 (ix3 (0 : Fin 1) r (lane half j)) :=
  (slice2_axis1_apply 0 (k3_pay3 x8) slices_S256x128_o0_0_S256x64 r j (lane half j)
      (by show half.val * 64 + j.val = 0 + j.val; omega)).trans
    (shapeCast_1ab_ab_apply x8 shapeCasts_S1x256x128_S256x128 r (lane half j))

/-- The query slab's high half at `(r, j)`. -/
theorem q_hi (x8 : Vec Ideal S1x256x128 .bf16) (r : Fin 256) (j : Fin 64) (half : Fin 2) (hh : half.val = 1) :
    extractStridedSlice S256x64 ![0, 64] (k3_pay3 x8) slices_S256x128_o0_64_S256x64 (ix2 r j)
      = x8 (ix3 (0 : Fin 1) r (lane half j)) :=
  (slice2_axis1_apply 64 (k3_pay3 x8) slices_S256x128_o0_64_S256x64 r j (lane half j)
      (by show half.val * 64 + j.val = 64 + j.val; omega)).trans
    (shapeCast_1ab_ab_apply x8 shapeCasts_S1x256x128_S256x128 r (lane half j))

/-- The key slab's low half at `(k, j)`. -/
theorem k_lo (x11 : Vec Ideal S1x2048x128 .bf16) (k : Fin 2048) (j : Fin 64) (half : Fin 2) (hh : half.val = 0) :
    extractStridedSlice S2048x64 ![0, 0] (k3_pay4 x11) slices_S2048x128_o0_0_S2048x64 (ix2 k j)
      = x11 (ix3 (0 : Fin 1) k (lane half j)) :=
  (slice2_axis1_apply 0 (k3_pay4 x11) slices_S2048x128_o0_0_S2048x64 k j (lane half j)
      (by show half.val * 64 + j.val = 0 + j.val; omega)).trans
    (shapeCast_1ab_ab_apply x11 shapeCasts_S1x2048x128_S2048x128 k (lane half j))

/-- The key slab's high half at `(k, j)`. -/
theorem k_hi (x11 : Vec Ideal S1x2048x128 .bf16) (k : Fin 2048) (j : Fin 64) (half : Fin 2) (hh : half.val = 1) :
    extractStridedSlice S2048x64 ![0, 64] (k3_pay4 x11) slices_S2048x128_o0_64_S2048x64 (ix2 k j)
      = x11 (ix3 (0 : Fin 1) k (lane half j)) :=
  (slice2_axis1_apply 64 (k3_pay4 x11) slices_S2048x128_o0_64_S2048x64 k j (lane half j)
      (by show half.val * 64 + j.val = 64 + j.val; omega)).trans
    (shapeCast_1ab_ab_apply x11 shapeCasts_S1x2048x128_S2048x128 k (lane half j))

/-- The value slab's low half at `(k, j)`. -/
theorem v_lo (x14 : Vec Ideal S1x2048x128 .bf16) (k : Fin 2048) (j : Fin 64) (half : Fin 2) (hh : half.val = 0) :
    extractStridedSlice S2048x64 ![0, 0] (k3_pay5 x14) slices_S2048x128_o0_0_S2048x64 (ix2 k j)
      = x14 (ix3 (0 : Fin 1) k (lane half j)) :=
  (slice2_axis1_apply 0 (k3_pay5 x14) slices_S2048x128_o0_0_S2048x64 k j (lane half j)
      (by show half.val * 64 + j.val = 0 + j.val; omega)).trans
    (shapeCast_1ab_ab_apply x14 shapeCasts_S1x2048x128_S2048x128 k (lane half j))

/-- The value slab's high half at `(k, j)`. -/
theorem v_hi (x14 : Vec Ideal S1x2048x128 .bf16) (k : Fin 2048) (j : Fin 64) (half : Fin 2) (hh : half.val = 1) :
    k3_pay7 x14 (ix2 k j) = x14 (ix3 (0 : Fin 1) k (lane half j)) :=
  (slice2_axis1_apply 64 (k3_pay5 x14) slices_S2048x128_o0_64_S2048x64 k j (lane half j)
      (by show half.val * 64 + j.val = 64 + j.val; omega)).trans
    (shapeCast_1ab_ab_apply x14 shapeCasts_S1x2048x128_S2048x128 k (lane half j))

/-! ## The stored slab at an index -/

/-- The stored slab at row `r`, lane `64·half + j`. -/
theorem tripPay_apply (v0 : Vec Ideal S1x256x2048 .i32) (x8 : Vec Ideal S1x256x128 .bf16) (x11 x14 : Vec Ideal S1x2048x128 .bf16)
    (r : Fin 256) (half : Fin 2) (j : Fin 64) :
    tripPay v0 x8 x11 x14 (ix3 (0 : Fin 1) r (lane half j))
      = Cert.Attn.attnKL
          (Cert.Attn.scoreL (fun jj => x8 (ix3 (0 : Fin 1) r (lane half jj))) (fun k jj => x11 (ix3 (0 : Fin 1) k (lane half jj)))
            (fun k => v0 (ix3 (0 : Fin 1) r k)))
          (fun k => x14 (ix3 (0 : Fin 1) k (lane half j))) := by
  unfold tripPay
  rw [pay2_eq]
  refine (shapeCast_ab_1ab_apply _ shapeCasts_S256x128_S1x256x128 (0 : Fin 1) r (lane half j)).trans ?_
  have hcase : half.val = 0 ∨ half.val = 1 := by omega
  rcases hcase with hh | hh
  · -- the first head: a lane below 64 falls in the first piece
    refine (concatenate_pair_apply_left 1 _ _ concatenates_S256x64_S256x64_S256x128_d1 (ix2 r (lane half j)) rfl (ix2 r j)
      (fun b => by
        match b with
        | ⟨0, _⟩ => rfl
        | ⟨1, _⟩ => show j.val = half.val * 64 + j.val; omega)).trans ?_
    rw [pay6_eq]
    refine (head_apply v0 _ _ _ r j).trans ?_
    exact congrArg₂ Cert.Attn.attnKL
      (congrArg₂ (fun a b => Cert.Attn.scoreL a b (fun k => v0 (ix3 (0 : Fin 1) r k)))
        (funext fun jj => q_lo x8 r jj half hh)
        (funext fun k => funext fun jj => k_lo x11 k jj half hh))
      (funext fun k => v_lo x14 k j half hh)
  · -- the second head: a lane from 64 on falls in the second piece, 64 less
    refine (concatenate_pair_apply_right 1 _ _ concatenates_S256x64_S256x64_S256x128_d1 (ix2 r (lane half j)) rfl rfl (ix2 r j)
      (fun b hb => by
        match b, hb with
        | ⟨0, _⟩, _ => rfl
        | ⟨1, _⟩, hb => exact absurd (Fin.ext rfl) hb)
      (by show j.val + 64 = half.val * 64 + j.val; omega)).trans ?_
    rw [pay8_eq]
    refine (head_apply v0 _ _ _ r j).trans ?_
    exact congrArg₂ Cert.Attn.attnKL
      (congrArg₂ (fun a b => Cert.Attn.scoreL a b (fun k => v0 (ix3 (0 : Fin 1) r k)))
        (funext fun jj => q_hi x8 r jj half hh)
        (funext fun k => funext fun jj => k_hi x11 k jj half hh))
      (funext fun k => v_hi x14 k j half hh)

end Cert.KernelIdeal.AttnPay

end
-- ==== Proof.KAttn.lean ====
/-
  The attention launch, read as a value: on a grid of 2 batches × 8 query tiles of 256 rows,
  each point reads its query tile, the batch's whole key and value arrays and its tile of the
  mask, and leaves in its output tile the attention of every head (the loop over head pairs
  fills the tile 128 lanes at a time). The 16 tiles fill the output array, so after the launch
  it holds attention in the kernel's arrangement at every (batch, position, column).
-/
import proofs.«421860_j29489245454730_3_alg».proof.Proof.Gen.KernelIdeal.Frame
import proofs.«421860_j29489245454730_3_alg».proof.Proof.Spec
import proofs.«421860_j29489245454730_3_alg».proof.Proof.KAttnTrip
import proofs.«421860_j29489245454730_3_alg».proof.Proof.KAttnPay
import Idealize.ShloMosaic.Lib.Pipeline.Value
import Idealize.ShloMosaic.Lib.ValueIdx

set_option maxRecDepth 16384

noncomputable section

open scoped BigOperators

namespace Cert.KernelIdeal.Attn3

open Idealize.ShloMosaic Idealize.ShloMosaic.TcCoe Idealize.SL.Sem Idealize.ShloMosaic.ValueIdx
open Cert.KernelIdeal Cert.KernelIdeal.Gen

/-- One trip's arithmetic, as the payload module proves it. -/
theorem payFact : AttnTrip.PayFact := fun v0 x8 x11 x14 r half j => AttnPay.tripPay_apply v0 x8 x11 x14 r half j

/-- The index maps, decided over the 16 grid points: the query, mask and output tiles move together
    (batch, query tile), the key and value blocks with the batch only; every block spans all columns. -/
theorem idx_facts : ∀ t : Fin cfg3.N,
    win3_0.index t (0 : Fin 3) = win3_4.index t (0 : Fin 3) ∧ win3_0.index t (1 : Fin 3) = win3_4.index t (1 : Fin 3) ∧ win3_0.index t (2 : Fin 3) = 0
    ∧ win3_1.index t (0 : Fin 3) = win3_4.index t (0 : Fin 3) ∧ win3_1.index t (1 : Fin 3) = 0 ∧ win3_1.index t (2 : Fin 3) = 0
    ∧ win3_2.index t (0 : Fin 3) = win3_4.index t (0 : Fin 3) ∧ win3_2.index t (1 : Fin 3) = 0 ∧ win3_2.index t (2 : Fin 3) = 0
    ∧ win3_3.index t (0 : Fin 3) = win3_4.index t (0 : Fin 3) ∧ win3_3.index t (1 : Fin 3) = win3_4.index t (1 : Fin 3) ∧ win3_3.index t (2 : Fin 3) = 0
    ∧ win3_4.index t (0 : Fin 3) ≤ 1 ∧ win3_4.index t (1 : Fin 3) ≤ 7 ∧ win3_4.index t (2 : Fin 3) = 0 :=
  (by decide +kernel : ∀ t : Fin grid3.N, _)

/-- Every (batch, query tile) is some point's. -/
theorem idx_onto : ∀ (q0 : Fin 2) (q1 : Fin 8), ∃ t : Fin cfg3.N, win3_4.index t = ![q0.val, q1.val, 0] :=
  (by decide +kernel : ∀ (q0 : Fin 2) (q1 : Fin 8), ∃ t : Fin grid3.N, win3_4.index t = ![q0.val, q1.val, 0])

/-- What point `t` writes back is tile `t` of the attention array of the arrays as the launch finds them. -/
theorem flushed_eq (V : (c : Dev nD) → (b : Ref sig .tc) → Buf (Elt Ideal) ((c : Thread nD τ).loc b)) (c : Dev nD) (t : Fin cfg3.N) :
    (dat3 (F := Ideal) V c).flushed 4 t
      = ((cfg3.win 4).blk t).view.read (Elt Ideal) (Cert.Attn.attnKA (V c main_v6) (V c main_v9) (V c main_v12) (V c main_arg3)) := by
  show (cfg3.win 4).cut (grid3.coords t) ((dat3 V c).after 4 t) = _
  rw [after3_4]
  unfold outsAt3
  rw [AttnTrip.out_eq payFact]
  obtain ⟨e00, e01, e02, e10, e11, e12, e20, e21, e22, e30, e31, e32, b0, b1, e42⟩ := idx_facts t
  funext y
  show AttnTrip.blockFn (iblk3 V c 0 t) (iblk3 V c 1 t) (iblk3 V c 2 t) (iblk3 V c 3 t) y
      = Cert.Attn.attnKA (V c main_v6) (V c main_v9) (V c main_v12) (V c main_arg3) (((cfg3.win 4).blk t).view.emb y)
  unfold AttnTrip.blockFn Cert.Attn.attnKA Cert.Attn.attnK Cert.Attn.scoreRow
  have hy0 : (y 0).val < 1 := (y 0).isLt
  have hy1 : (y 1).val < 256 := (y 1).isLt
  have hy2 : (y 2).val < 1024 := (y 2).isLt
  -- the output index's column is the block's column
  have hcol : ((((cfg3.win 4).blk t).view.emb y) 2 : Fin 1024) = (y 2 : Fin 1024) := Fin.ext (by
    show win3_4.index t (2 : Fin 3) * 1024 + 1 * (y 2).val = (y 2).val; omega)
  have hq : (fun jj => iblk3 V c 0 t (ix3 (0 : Fin 1) (y 1) (Cert.Attn.headCol (Cert.Attn.headOf (y 2)) jj)))
      = fun jj => V c main_v6 (ix3 ((((cfg3.win 4).blk t).view.emb y) 0) ((((cfg3.win 4).blk t).view.emb y) 1)
          (Cert.Attn.headCol (Cert.Attn.headOf ((((cfg3.win 4).blk t).view.emb y) 2)) jj)) := funext fun jj => by
    rw [hcol]
    show V c main_v6 (((cfg3.win 0).blk t).view.emb (ix3 (0 : Fin 1) (y 1) (Cert.Attn.headCol (Cert.Attn.headOf (y 2)) jj))) = _
    refine congrArg (V c main_v6) (funext fun a => Fin.ext ?_)
    match a with
    | ⟨0, _⟩ => show win3_0.index t (0 : Fin 3) * 1 + 1 * 0 = win3_4.index t (0 : Fin 3) * 1 + 1 * (y 0).val; omega
    | ⟨1, _⟩ => show win3_0.index t (1 : Fin 3) * 256 + 1 * (y 1).val = win3_4.index t (1 : Fin 3) * 256 + 1 * (y 1).val; omega
    | ⟨2, _⟩ => show win3_0.index t (2 : Fin 3) * 1024 + 1 * (Cert.Attn.headCol (Cert.Attn.headOf (y 2)) jj).val = (Cert.Attn.headCol (Cert.Attn.headOf (y 2)) jj).val; omega
  have hk : (fun k jj => iblk3 V c 1 t (ix3 (0 : Fin 1) k (Cert.Attn.headCol (Cert.Attn.headOf (y 2)) jj)))
      = fun k jj => V c main_v9 (ix3 ((((cfg3.win 4).blk t).view.emb y) 0) k
          (Cert.Attn.headCol (Cert.Attn.headOf ((((cfg3.win 4).blk t).view.emb y) 2)) jj)) := funext fun k => funext fun jj => by
    rw [hcol]
    show V c main_v9 (((cfg3.win 1).blk t).view.emb (ix3 (0 : Fin 1) k (Cert.Attn.headCol (Cert.Attn.headOf (y 2)) jj))) = _
    refine congrArg (V c main_v9) (funext fun a => Fin.ext ?_)
    match a with
    | ⟨0, _⟩ => show win3_1.index t (0 : Fin 3) * 1 + 1 * 0 = win3_4.index t (0 : Fin 3) * 1 + 1 * (y 0).val; omega
    | ⟨1, _⟩ => show win3_1.index t (1 : Fin 3) * 2048 + 1 * k.val = k.val; omega
    | ⟨2, _⟩ => show win3_1.index t (2 : Fin 3) * 1024 + 1 * (Cert.Attn.headCol (Cert.Attn.headOf (y 2)) jj).val = (Cert.Attn.headCol (Cert.Attn.headOf (y 2)) jj).val; omega
  have hm : (fun k => iblk3 V c 3 t (ix3 (0 : Fin 1) (y 1) k))
      = fun k => V c main_arg3 (ix3 ((((cfg3.win 4).blk t).view.emb y) 0) ((((cfg3.win 4).blk t).view.emb y) 1) k) := funext fun k => by
    show V c main_arg3 (((cfg3.win 3).blk t).view.emb (ix3 (0 : Fin 1) (y 1) k)) = _
    refine congrArg (V c main_arg3) (funext fun a => Fin.ext ?_)
    match a with
    | ⟨0, _⟩ => show win3_3.index t (0 : Fin 3) * 1 + 1 * 0 = win3_4.index t (0 : Fin 3) * 1 + 1 * (y 0).val; omega
    | ⟨1, _⟩ => show win3_3.index t (1 : Fin 3) * 256 + 1 * (y 1).val = win3_4.index t (1 : Fin 3) * 256 + 1 * (y 1).val; omega
    | ⟨2, _⟩ => show win3_3.index t (2 : Fin 3) * 2048 + 1 * k.val = k.val; omega
  have hv : (fun k => iblk3 V c 2 t (ix3 (0 : Fin 1) k (y 2)))
      = fun k => V c main_v12 (ix3 ((((cfg3.win 4).blk t).view.emb y) 0) k
          (Cert.Attn.headCol (Cert.Attn.headOf ((((cfg3.win 4).blk t).view.emb y) 2)) (Cert.Attn.inHead ((((cfg3.win 4).blk t).view.emb y) 2)))) := funext fun k => by
    show V c main_v12 (((cfg3.win 2).blk t).view.emb (ix3 (0 : Fin 1) k (y 2))) = _
    refine congrArg (V c main_v12) (funext fun a => Fin.ext ?_)
    match a with
    | ⟨0, _⟩ => show win3_2.index t (0 : Fin 3) * 1 + 1 * 0 = win3_4.index t (0 : Fin 3) * 1 + 1 * (y 0).val; omega
    | ⟨1, _⟩ => show win3_2.index t (1 : Fin 3) * 2048 + 1 * k.val = k.val; omega
    | ⟨2, _⟩ =>
      have hc := congrArg Fin.val (Cert.Attn.headCol_headOf_inHead ((((cfg3.win 4).blk t).view.emb y) 2))
      have hc2 := congrArg Fin.val hcol
      refine Eq.trans ?_ hc.symm
      refine Eq.trans ?_ hc2.symm
      show win3_2.index t (2 : Fin 3) * 1024 + 1 * (y 2).val = (y 2).val; omega
  rw [hq, hk, hm, hv]

/-- An index of the output array is in point `t`'s tile iff each coordinate is in the tile's range. -/
theorem mem_blk (t : Fin cfg3.N) (i : S2x2048x1024.Idx) :
    i ∈ ((cfg3.win 4).blk t).view.set ↔ ∀ a : Fin 3, win3_4.index t a * S1x256x1024.size a ≤ (i a).val ∧ (i a).val < win3_4.index t a * S1x256x1024.size a + S1x256x1024.size a := by
  show i ∈ ((View.whole main_v13).slice (win3_4.rect t)).set ↔ _
  rw [View.set_slice_whole, Rect.mem_set_unit]
  exact Iff.rfl

/-- Every entry of the output array is written back by some point: batch b, position s by the point of
    (b, s / 256). -/
theorem cover (i : S2x2048x1024.Idx) : ∃ t : Fin cfg3.N, (cfg3.win 4).flush t = true ∧ i ∈ ((cfg3.win 4).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win3_4.index t (0 : Fin 3) = (i 0).val := congrFun ht 0
  have q1 : win3_4.index t (1 : Fin 3) = (i 1).val / 256 := congrFun ht 1
  have q2 : win3_4.index t (2 : Fin 3) = 0 := congrFun ht 2
  refine ⟨t, flush3_4 t, ?_⟩
  rw [mem_blk]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 256 ≤ (i 1).val ∧ (i 1).val < win3_4.index t (1 : Fin 3) * 256 + 256; omega
  | ⟨2, _⟩ => show win3_4.index t (2 : Fin 3) * 1024 ≤ (i 2).val ∧ (i 2).val < win3_4.index t (2 : Fin 3) * 1024 + 1024; omega

/-- What launch 3 leaves in its output array, for any contents `V` it is entered with. -/
theorem value (V : (c : Dev nD) → (b : Ref sig .tc) → Buf (Elt Ideal) ((c : Thread nD τ).loc b)) (c : Dev nD) :
    (dat3 (F := Ideal) V c).arrAt 4 cfg3.N = Cert.Attn.attnKA (V c main_v6) (V c main_v9) (V c main_v12) (V c main_arg3) :=
  (dat3 (F := Ideal) V c).arrAt_eq_of_cover 4 (Cert.Attn.attnKA (V c main_v6) (V c main_v9) (V c main_v12) (V c main_arg3))
    (fun t _ => flushed_eq V c t) cover

end Cert.KernelIdeal.Attn3

end
-- ==== Proof.RefSpec.lean ====
/-
  The reference program, read as the layer's function: its 44 host operations compose to
  `layerR` of the arguments — the three projections, the per-head logits divided by √64 = 8
  and masked, the softmax with each weight normalised before the sum over keys, the heads
  laid side by side again, and the output projection plus its bias.
-/
import proofs.«421860_j29489245454730_3_alg».proof.Proof.Gen.ReferenceIdeal.Read
import proofs.«421860_j29489245454730_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefSpec

open Idealize.ShloMosaic Idealize.ShloMosaic.TcCoe Idealize.SL.Sem Idealize.ShloMosaic.ValueIdx
open Cert.ReferenceIdeal Cert.ReferenceIdeal.Gen Cert.ReferenceIdeal.Read
open Cert.Attn

/-! ### The three input projections -/

theorem v0_eq (x : Sx.Idx → EReal) (w : Sw.Idx → EReal) : val_main_v0 (F := Ideal) x w = projA x w := by
  funext i
  rw [val_main_v0_apply]
  unfold projA proj
  refine Finset.sum_congr rfl fun k _ => ?_
  have e1 : lidx_main_v0 i k = ix3 (i 0) (i 1) k :=
    funext fun a => Fin.ext (by match a with | ⟨0, _⟩ => rfl | ⟨1, _⟩ => rfl | ⟨2, _⟩ => rfl)
  have e2 : ridx_main_v0 i k = ix2 (i 2) k :=
    funext fun a => Fin.ext (by match a with | ⟨0, _⟩ => rfl | ⟨1, _⟩ => rfl)
  rw [e1, e2]
  rfl

theorem v3_eq (x : Sx.Idx → EReal) (w : Sw.Idx → EReal) : val_main_v3 (F := Ideal) x w = projA x w := by
  funext i
  rw [val_main_v3_apply]
  unfold projA proj
  refine Finset.sum_congr rfl fun k _ => ?_
  have e1 : lidx_main_v3 i k = ix3 (i 0) (i 1) k :=
    funext fun a => Fin.ext (by match a with | ⟨0, _⟩ => rfl | ⟨1, _⟩ => rfl | ⟨2, _⟩ => rfl)
  have e2 : ridx_main_v3 i k = ix2 (i 2) k :=
    funext fun a => Fin.ext (by match a with | ⟨0, _⟩ => rfl | ⟨1, _⟩ => rfl)
  rw [e1, e2]
  rfl

theorem v6_eq (x : Sx.Idx → EReal) (w : Sw.Idx → EReal) : val_main_v6 (F := Ideal) x w = projA x w := by
  funext i
  rw [val_main_v6_apply]
  unfold projA proj
  refine Finset.sum_congr rfl fun k _ => ?_
  have e1 : lidx_main_v6 i k = ix3 (i 0) (i 1) k :=
    funext fun a => Fin.ext (by match a with | ⟨0, _⟩ => rfl | ⟨1, _⟩ => rfl | ⟨2, _⟩ => rfl)
  have e2 : ridx_main_v6 i k = ix2 (i 2) k :=
    funext fun a => Fin.ext (by match a with | ⟨0, _⟩ => rfl | ⟨1, _⟩ => rfl)
  rw [e1, e2]
  rfl

/-! ### Splitting the model axis into heads: entry (b, h, s, j) of the head-major array is
    entry (b, s, 64 h + j) of the projection. -/

theorem split_q (b : Fin 2) (h : Fin 16) (s : Fin 2048) (j : Fin 64) :
    idx_main_v1 (idx_main_v2 (ix4 b h s j)) = ix3 b s (headCol h j) :=
  funext fun a => Fin.ext (by
    have hb := b.isLt; have hh := h.isLt; have hs := s.isLt; have hj := j.isLt
    match a with
    | ⟨0, _⟩ => show (((b.val * 2048 + s.val) * 16 + h.val) * 64 + j.val) / 2097152 = b.val; omega
    | ⟨1, _⟩ => show (((b.val * 2048 + s.val) * 16 + h.val) * 64 + j.val) / 1024 % 2048 = s.val; omega
    | ⟨2, _⟩ => show (((b.val * 2048 + s.val) * 16 + h.val) * 64 + j.val) % 1024 = h.val * 64 + j.val; omega)

theorem split_k (b : Fin 2) (h : Fin 16) (s : Fin 2048) (j : Fin 64) :
    idx_main_v4 (idx_main_v5 (ix4 b h s j)) = ix3 b s (headCol h j) :=
  funext fun a => Fin.ext (by
    have hb := b.isLt; have hh := h.isLt; have hs := s.isLt; have hj := j.isLt
    match a with
    | ⟨0, _⟩ => show (((b.val * 2048 + s.val) * 16 + h.val) * 64 + j.val) / 2097152 = b.val; omega
    | ⟨1, _⟩ => show (((b.val * 2048 + s.val) * 16 + h.val) * 64 + j.val) / 1024 % 2048 = s.val; omega
    | ⟨2, _⟩ => show (((b.val * 2048 + s.val) * 16 + h.val) * 64 + j.val) % 1024 = h.val * 64 + j.val; omega)

theorem split_v (b : Fin 2) (h : Fin 16) (s : Fin 2048) (j : Fin 64) :
    idx_main_v7 (idx_main_v8 (ix4 b h s j)) = ix3 b s (headCol h j) :=
  funext fun a => Fin.ext (by
    have hb := b.isLt; have hh := h.isLt; have hs := s.isLt; have hj := j.isLt
    match a with
    | ⟨0, _⟩ => show (((b.val * 2048 + s.val) * 16 + h.val) * 64 + j.val) / 2097152 = b.val; omega
    | ⟨1, _⟩ => show (((b.val * 2048 + s.val) * 16 + h.val) * 64 + j.val) / 1024 % 2048 = s.val; omega
    | ⟨2, _⟩ => show (((b.val * 2048 + s.val) * 16 + h.val) * 64 + j.val) % 1024 = h.val * 64 + j.val; omega)

theorem v2_at (x : Sx.Idx → EReal) (w : Sw.Idx → EReal) (b : Fin 2) (h : Fin 16) (s : Fin 2048) (j : Fin 64) :
    val_main_v2 (F := Ideal) x w (ix4 b h s j) = projA x w (ix3 b s (headCol h j)) := by
  rw [val_main_v2_apply, val_main_v1_apply, split_q, v0_eq]

theorem v5_at (x : Sx.Idx → EReal) (w : Sw.Idx → EReal) (b : Fin 2) (h : Fin 16) (s : Fin 2048) (j : Fin 64) :
    val_main_v5 (F := Ideal) x w (ix4 b h s j) = projA x w (ix3 b s (headCol h j)) := by
  rw [val_main_v5_apply, val_main_v4_apply, split_k, v3_eq]

theorem v8_at (x : Sx.Idx → EReal) (w : Sw.Idx → EReal) (b : Fin 2) (h : Fin 16) (s : Fin 2048) (j : Fin 64) :
    val_main_v8 (F := Ideal) x w (ix4 b h s j) = projA x w (ix3 b s (headCol h j)) := by
  rw [val_main_v8_apply, val_main_v7_apply, split_v, v6_eq]

/-! ### The logits -/

theorem v9_at (x0 x1 : Sx.Idx → EReal) (x4 x5 : Sw.Idx → EReal) (b : Fin 2) (h : Fin 16) (s k : Fin 2048) :
    val_main_v9 (F := Ideal) x0 x1 x4 x5 (ix4 b h s k)
      = ∑ j : Fin 64, projA x0 x4 (ix3 b s (headCol h j)) * projA x1 x5 (ix3 b k (headCol h j)) := by
  rw [val_main_v9_apply]
  refine Finset.sum_congr rfl fun j _ => ?_
  have e1 : lidx_main_v9 (ix4 b h s k) j = ix4 b h s j :=
    funext fun a => Fin.ext (by match a with | ⟨0, _⟩ => rfl | ⟨1, _⟩ => rfl | ⟨2, _⟩ => rfl | ⟨3, _⟩ => rfl)
  have e2 : ridx_main_v9 (ix4 b h s k) j = ix4 b h k j :=
    funext fun a => Fin.ext (by match a with | ⟨0, _⟩ => rfl | ⟨1, _⟩ => rfl | ⟨2, _⟩ => rfl | ⟨3, _⟩ => rfl)
  rw [e1, e2, v2_at, v5_at]

/-- √64 = 8. -/
theorem sqrt_sixtyfour : Ideal.sqrt (Ideal.ofBits .f32 0x42800000#32) = ((8 : ℝ) : EReal) := by
  have h64 : Ideal.ofBits .f32 0x42800000#32 = ((64 : ℝ) : EReal) := by
    simp [Ideal.ofBits, Ideal.ieee, -EReal.coe_mul]; norm_num
  rw [h64, Ideal.sqrt_coe, if_neg (by norm_num)]
  congr 1
  rw [show (64 : ℝ) = 8 ^ 2 by norm_num, Real.sqrt_sq (by norm_num)]

theorem v11_at (i : S2x16x2048x2048.Idx) : val_main_v11 (F := Ideal) i = ((8 : ℝ) : EReal) := by
  rw [val_main_v11_apply, val_main_v10_apply, val_main_cst_apply]
  exact sqrt_sixtyfour

theorem v12_at (x0 x1 : Sx.Idx → EReal) (x4 x5 : Sw.Idx → EReal) (b : Fin 2) (h : Fin 16) (s k : Fin 2048) :
    val_main_v12 (F := Ideal) x0 x1 x4 x5 (ix4 b h s k)
      = (∑ j : Fin 64, projA x0 x4 (ix3 b s (headCol h j)) * projA x1 x5 (ix3 b k (headCol h j))) * eighth := by
  rw [val_main_v12_apply, v11_at, v9_at]
  exact Ideal.div_coe (by norm_num) _

/-- A select on "the word is zero" is the `if`. -/
theorem select_eq_zero {α : Type} (a : BitVec 32) (A B : α) :
    Scalar.select (IntOp.cmpi .eq a 0#32) A B = if a = 0#32 then A else B := by
  simp only [Scalar.select, IntOp.cmpi]
  by_cases h : a = 0#32
  · simp [h]
  · have hb : (a == 0#32) = false := beq_eq_false_iff_ne.mpr h
    simp [h, hb]

theorem v16_at (x0 x1 : Sx.Idx → EReal) (x3 : Sm.Idx → BitVec 32) (x4 x5 : Sw.Idx → EReal)
    (b : Fin 2) (h : Fin 16) (s k : Fin 2048) :
    val_main_v16 (F := Ideal) x0 x1 x3 x4 x5 (ix4 b h s k) = scoreRow (projA x0 x4) (projA x1 x5) x3 b h s k := by
  rw [val_main_v16_apply, val_main_call0_v1_apply, val_main_v15_apply, val_main_v13_apply, val_main_v14_apply,
    val_main_c_apply, val_main_call0_v2_apply, val_main_call0_v0_apply, val_main_cst_0_apply, v12_at]
  have e : idx_main_v13 (idx_main_call0_v1 (ix4 b h s k)) = ix3 b s k :=
    funext fun a => Fin.ext (by match a with | ⟨0, _⟩ => rfl | ⟨1, _⟩ => rfl | ⟨2, _⟩ => rfl)
  rw [e, select_eq_zero]
  rfl

/-! ### The row maximum -/

/-- The pattern 0xFF800000 is -∞. -/
theorem neg_inf : Ideal.ofBits .f32 0xFF800000#32 = (⊥ : EReal) := by
  simp [Ideal.ofBits, Ideal.ieee]

/-- The maximum over the last axis, read at (b, h, s): the fold of `max` from -∞ over the keys. -/
theorem rowmax_read (y : FVec Ideal S2x16x2048x2048 .f32) (b : Fin 2) (h : Fin 16) (s : Fin 2048) :
    Host.reduce FloatOps.maximumf y (val_main_cst_1 (F := Ideal)) reducesTo_S2x16x2048x2048_S2x16x2048_d3 h_S_ (ix3 b h s)
      = rowMax (fun k => y (ix4 b h s k)) := by
  have hR : S2x16x2048x2048.Reduces [3] S2x16x2048 := by decide
  rw [Host.reduce_eq_fold_single FloatOps.maximumf y _ reducesTo_S2x16x2048x2048_S2x16x2048_d3 hR h_S_]
  rw [show val_main_cst_1 (F := Ideal) (Shape.Idx.first h_S_) = (⊥ : EReal) from neg_inf]
  have hf : (y ∘ hR.lift (ix3 b h s)) = fun k : Fin 2048 => y (ix4 b h s k) :=
    funext fun k => congrArg y (funext fun a => Fin.ext (by
      match a with | ⟨0, _⟩ => rfl | ⟨1, _⟩ => rfl | ⟨2, _⟩ => rfl | ⟨3, _⟩ => rfl))
  unfold rowMax
  exact congrArg (fun f => Finset.fold max (⊥ : EReal) f (Finset.univ : Finset (Fin 2048))) hf

theorem v17_at (x0 x1 : Sx.Idx → EReal) (x3 : Sm.Idx → BitVec 32) (x4 x5 : Sw.Idx → EReal)
    (b : Fin 2) (h : Fin 16) (s : Fin 2048) :
    val_main_v17 (F := Ideal) x0 x1 x3 x4 x5 (ix3 b h s)
      = rowMax (scoreRow (projA x0 x4) (projA x1 x5) x3 b h s) := by
  unfold val_main_v17
  refine (rowmax_read _ b h s).trans ?_
  exact congrArg rowMax (funext fun k => v16_at x0 x1 x3 x4 x5 b h s k)

theorem v19_at (x0 x1 : Sx.Idx → EReal) (x3 : Sm.Idx → BitVec 32) (x4 x5 : Sw.Idx → EReal)
    (b : Fin 2) (h : Fin 16) (s : Fin 2048) :
    val_main_v19 (F := Ideal) x0 x1 x3 x4 x5 (ix3 b h s)
      = rowMax (scoreRow (projA x0 x4) (projA x1 x5) x3 b h s) := by
  rw [val_main_v19_apply, val_main_v18_apply, val_main_cst_2_apply, v17_at]
  show max (Ideal.ofBits .f32 0xFF800000#32) _ = _
  rw [neg_inf]
  exact max_bot_left _

theorem v21_at (x0 x1 : Sx.Idx → EReal) (x3 : Sm.Idx → BitVec 32) (x4 x5 : Sw.Idx → EReal)
    (b : Fin 2) (h : Fin 16) (s k : Fin 2048) :
    val_main_v21 (F := Ideal) x0 x1 x3 x4 x5 (ix4 b h s k)
      = rowMax (scoreRow (projA x0 x4) (projA x1 x5) x3 b h s) := by
  rw [val_main_v21_apply, val_main_v20_apply]
  have e : idx_main_v20 (idx_main_v21 (ix4 b h s k)) = ix3 b h s :=
    funext fun a => Fin.ext (by match a with | ⟨0, _⟩ => rfl | ⟨1, _⟩ => rfl | ⟨2, _⟩ => rfl)
  rw [e, v19_at]

/-! ### The softmax weights and their sum -/

theorem v23_at (x0 x1 : Sx.Idx → EReal) (x3 : Sm.Idx → BitVec 32) (x4 x5 : Sw.Idx → EReal)
    (b : Fin 2) (h : Fin 16) (s k : Fin 2048) :
    val_main_v23 (F := Ideal) x0 x1 x3 x4 x5 (ix4 b h s k)
      = wgtL (scoreRow (projA x0 x4) (projA x1 x5) x3 b h s) k := by
  rw [val_main_v23_apply, val_main_v22_apply, v16_at, v21_at]
  rfl

theorem v24_at (x0 x1 : Sx.Idx → EReal) (x3 : Sm.Idx → BitVec 32) (x4 x5 : Sw.Idx → EReal)
    (b : Fin 2) (h : Fin 16) (s : Fin 2048) :
    val_main_v24 (F := Ideal) x0 x1 x3 x4 x5 (ix3 b h s)
      = ∑ k : Fin 2048, wgtL (scoreRow (projA x0 x4) (projA x1 x5) x3 b h s) k := by
  rw [val_main_v24_apply, val_main_cst_3_apply]
  show Ideal.ofBits .f32 0x00000000#32 + _ = _
  rw [Ideal.ofBits_zero_f32, zero_add]
  refine Finset.sum_congr rfl fun k _ => ?_
  have e : idx_main_v24 (ix3 b h s) k = ix4 b h s k :=
    funext fun a => Fin.ext (by match a with | ⟨0, _⟩ => rfl | ⟨1, _⟩ => rfl | ⟨2, _⟩ => rfl | ⟨3, _⟩ => rfl)
  rw [e, v23_at]

theorem v27_at (x0 x1 : Sx.Idx → EReal) (x3 : Sm.Idx → BitVec 32) (x4 x5 : Sw.Idx → EReal)
    (b : Fin 2) (h : Fin 16) (s k : Fin 2048) :
    val_main_v27 (F := Ideal) x0 x1 x3 x4 x5 (ix4 b h s k)
      = Ideal.div (wgtL (scoreRow (projA x0 x4) (projA x1 x5) x3 b h s) k)
          (∑ k' : Fin 2048, wgtL (scoreRow (projA x0 x4) (projA x1 x5) x3 b h s) k') := by
  rw [val_main_v27_apply, val_main_v26_apply, val_main_v25_apply, v23_at]
  have e : idx_main_v25 (idx_main_v26 (ix4 b h s k)) = ix3 b h s :=
    funext fun a => Fin.ext (by match a with | ⟨0, _⟩ => rfl | ⟨1, _⟩ => rfl | ⟨2, _⟩ => rfl)
  rw [e, v24_at]
  rfl

/-! ### The weighted sum of the values, and the heads side by side again -/

theorem v28_at (x0 x1 x2 : Sx.Idx → EReal) (x3 : Sm.Idx → BitVec 32) (x4 x5 x6 : Sw.Idx → EReal)
    (b : Fin 2) (h : Fin 16) (s : Fin 2048) (j : Fin 64) :
    val_main_v28 (F := Ideal) x0 x1 x2 x3 x4 x5 x6 (ix4 b h s j)
      = attnR (projA x0 x4) (projA x1 x5) (projA x2 x6) x3 b s h j := by
  rw [val_main_v28_apply]
  unfold attnR attnRL
  refine Finset.sum_congr rfl fun k _ => ?_
  have e1 : lidx_main_v28 (ix4 b h s j) k = ix4 b h s k :=
    funext fun a => Fin.ext (by match a with | ⟨0, _⟩ => rfl | ⟨1, _⟩ => rfl | ⟨2, _⟩ => rfl | ⟨3, _⟩ => rfl)
  have e2 : ridx_main_v28 (ix4 b h s j) k = ix4 b h k j :=
    funext fun a => Fin.ext (by match a with | ⟨0, _⟩ => rfl | ⟨1, _⟩ => rfl | ⟨2, _⟩ => rfl | ⟨3, _⟩ => rfl)
  rw [e1, e2, v27_at, v8_at]

theorem merge_heads (b : Fin 2) (s : Fin 2048) (e : Fin 1024) :
    idx_main_v29 (idx_main_v30 (ix3 b s e)) = ix4 b (headOf e) s (inHead e) :=
  funext fun a => Fin.ext (by
    have hb := b.isLt; have hs := s.isLt; have he := e.isLt
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega)

theorem v30_eq (x0 x1 x2 : Sx.Idx → EReal) (x3 : Sm.Idx → BitVec 32) (x4 x5 x6 : Sw.Idx → EReal) :
    val_main_v30 (F := Ideal) x0 x1 x2 x3 x4 x5 x6
      = attnRA (projA x0 x4) (projA x1 x5) (projA x2 x6) x3 := by
  funext i
  obtain ⟨b, s, e, rfl⟩ : ∃ (b : Fin 2) (s : Fin 2048) (e : Fin 1024), i = ix3 b s e := ⟨i 0, i 1, i 2, eq_ix3 i⟩
  rw [val_main_v30_apply, val_main_v29_apply, merge_heads, v28_at]
  rfl

/-! ### The output projection and its bias -/

theorem v34_eq (x0 x1 x2 : Sx.Idx → EReal) (x3 : Sm.Idx → BitVec 32) (x4 x5 x6 x7 : Sw.Idx → EReal) (x8 : Sb.Idx → EReal) :
    val_main_v34 (F := Ideal) x0 x1 x2 x3 x4 x5 x6 x7 x8 = layerR x0 x1 x2 x3 x4 x5 x6 x7 x8 := by
  funext i
  rw [val_main_v34_apply, val_main_v31_apply, val_main_v33_apply, val_main_v32_apply, v30_eq]
  unfold layerR outA proj
  have e3 : idx_main_v32 (idx_main_v33 i) = ix1 (i 2) :=
    funext fun a => Fin.ext (by match a with | ⟨0, _⟩ => rfl)
  rw [e3]
  show (∑ k : Fin 1024, _) + _ = _
  refine congrArg (· + x8 (ix1 (i 2))) (Finset.sum_congr rfl fun k _ => ?_)
  have e1 : lidx_main_v31 i k = ix3 (i 0) (i 1) k :=
    funext fun a => Fin.ext (by match a with | ⟨0, _⟩ => rfl | ⟨1, _⟩ => rfl | ⟨2, _⟩ => rfl)
  have e2 : ridx_main_v31 i k = ix2 (i 2) k :=
    funext fun a => Fin.ext (by match a with | ⟨0, _⟩ => rfl | ⟨1, _⟩ => rfl)
  rw [e1, e2]
  rfl

/-- The reference run's result term is the layer in the reference's arrangement. -/
theorem res_eq_layerR (m : (ℓ : Loc nD τ sig) → Buf (Elt Ideal) ℓ) (c : Dev nD) :
    Cert.ReferenceIdeal.Value.res_out0 (F := Ideal) m c
      = Cert.Attn.layerR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (val_main_v34_eq m c).trans (v34_eq _ _ _ _ _ _ _ _ _)

end Cert.ReferenceIdeal.RefSpec

end
-- ==== Proof.lean ====
/-
  Multi-head attention (batch 2, 2048 positions, width 1024 = 16 heads × 64) as five launches —
  three projections, attention, the output projection — against the plain jnp layer, over the
  extended reals.

  * The kernel program leaves in its result array `layerK` of the arguments: each projection launch
    leaves `x · wᵀ + bias` (the first three with a zero bias), the attention launch leaves, per head,
    (∑ₖ e^{sₖ − max s} · vₖ) / ∑ₖ e^{sₖ − max s} with logits s = (q · k) · (1/8) masked by the stand-in
    constant, and the reshapes between the launches only rename indices.
  * The reference computes `layerR`: the same logits as (q · k) / √64, the same mask, and the softmax
    weights normalised BEFORE the sum over keys.
  * The two agree when the inputs are finite: the projections are then real, so every logit, weight
    and denominator is a real number, the denominator positive, and dividing a sum is summing the
    quotients. This is where the precondition is used; everything else holds on all extended reals.
  The three frames are the generated ones (the reference's is its run with the result dropped); no
  operation was rewritten by the idealization, so that claim is trivial.
-/
import proofs.«421860_j29489245454730_3_alg».proof.Defs
import proofs.«421860_j29489245454730_3_alg».proof.Proof.Gen.Kernel
import proofs.«421860_j29489245454730_3_alg».proof.Proof.Gen.Kernel.Skeleton
import proofs.«421860_j29489245454730_3_alg».proof.Proof.Gen.Kernel.Loops
import proofs.«421860_j29489245454730_3_alg».proof.Proof.Gen.Kernel.Launch
import proofs.«421860_j29489245454730_3_alg».proof.Proof.Gen.Kernel.Points
import proofs.«421860_j29489245454730_3_alg».proof.Proof.Gen.Kernel.Frame
import proofs.«421860_j29489245454730_3_alg».proof.Proof.Gen.KernelIdeal
import proofs.«421860_j29489245454730_3_alg».proof.Proof.Gen.KernelIdeal.Skeleton
import proofs.«421860_j29489245454730_3_alg».proof.Proof.Gen.KernelIdeal.Loops
import proofs.«421860_j29489245454730_3_alg».proof.Proof.Gen.KernelIdeal.Launch
import proofs.«421860_j29489245454730_3_alg».proof.Proof.Gen.KernelIdeal.Points
import proofs.«421860_j29489245454730_3_alg».proof.Proof.Gen.KernelIdeal.Frame
import proofs.«421860_j29489245454730_3_alg».proof.Proof.Gen.ReferenceIdeal
import proofs.«421860_j29489245454730_3_alg».proof.Proof.Gen.ReferenceIdeal.Run
import proofs.«421860_j29489245454730_3_alg».proof.Proof.Gen.Pre_finite_inputs
import proofs.«421860_j29489245454730_3_alg».proof.Proof.Spec
import proofs.«421860_j29489245454730_3_alg».proof.Proof.Bridge
import proofs.«421860_j29489245454730_3_alg».proof.Proof.Finite
import proofs.«421860_j29489245454730_3_alg».proof.Proof.KRun
import proofs.«421860_j29489245454730_3_alg».proof.Proof.KChain
import proofs.«421860_j29489245454730_3_alg».proof.Proof.KLin0
import proofs.«421860_j29489245454730_3_alg».proof.Proof.KLin1
import proofs.«421860_j29489245454730_3_alg».proof.Proof.KLin2
import proofs.«421860_j29489245454730_3_alg».proof.Proof.KLin4
import proofs.«421860_j29489245454730_3_alg».proof.Proof.KAttn
import proofs.«421860_j29489245454730_3_alg».proof.Proof.RefSpec
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the layer's value: the kernel at `layerK` of its arguments, the reference at
    `layerR` of arguments that agree, and the two arrangements are one function on finite inputs. -/
theorem algebraic : Cert.algebraic_KernelIdeal_ReferenceIdeal := by
  intro m ρ m' ρ' hpre hagree
  refine ⟨fun c => Cert.Attn.layerK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result_eq_of m ρ c Cert.KernelIdeal.Lin0.value Cert.KernelIdeal.Lin1.value
          Cert.KernelIdeal.Lin2.value Cert.KernelIdeal.Attn3.value Cert.KernelIdeal.Lin4.value), (h c).2⟩)
      (Cert.KernelIdeal.Gen.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    obtain ⟨r0, r1, r2, r4, r5, r6, -, -⟩ := Cert.Attn.isReal_of_finite_inputs _ _ _ _ _ _ _ _ _ (hpre c)
    rw [show Cert.ReferenceIdeal.Value.res_main_v34 m' c = Cert.ReferenceIdeal.Value.res_out0 m' c from rfl,
      Cert.ReferenceIdeal.RefSpec.res_eq_layerR m' c, a0, a1, a2, a3, a4, a5, a6, a7, a8]
    exact (Cert.Attn.layerK_eq_layerR _ _ _ _ _ _ _ _ _ r0 r1 r2 r4 r5 r6).symm

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
